-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 41
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  concatenates_S4096_S4096_S8192_d0 : Shape.Concatenates [S4096, S4096] S8192 0
  bcast_S_S8192 : S_.BroadcastsInDim S8192 (![] : Fin 0 → Fin S8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v17) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 97
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x1, .i32⟩
  | .hbm, ⟨66, _⟩ => ⟨S4096x2, .i32⟩
  | .hbm, ⟨67, _⟩ => ⟨S4096, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192x8192, .i32⟩
  | .hbm, ⟨74, _⟩ => ⟨S8192x8192, .i32⟩
  | .hbm, ⟨75, _⟩ => ⟨S_, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_16 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KI.Data.lean ====
/- The proof data of the pairwise-similarity kernel, for any float instance.

   The program normalises the rows of its two arguments, stacks them into one array `reps` of
   8192 rows, and launches ONE pipelined kernel over an 8 × 8 grid whose two input windows both
   read `reps`: at grid point (i, j) the first window holds row block i and the second row block j
   (1024 rows each).  The kernel keeps a column of 1024 partial sums in a scratch buffer: it clears
   it at j = 0, adds the masked row sums of exp(2 · ⟨row, row'⟩) over block j at every point, and at
   j = 7 copies it into the output window, which the pipeline writes back as rows 1024 i … of the
   result.  This module names those pieces: the arrays as the region finds them, the two input
   blocks at a point, the scratch column after each point, and the pipeline's proof data. -/
import proofs.«159083_j35948876267977_1_alg».proof.Proof.Gen.KernelIdeal.Launch
import proofs.«159083_j35948876267977_1_alg».proof.Proof.Gen.KernelIdeal.Skeleton
import proofs.«159083_j35948876267977_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic

set_option maxRecDepth 16384

noncomputable section

namespace Cert.KernelIdeal.Denom

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m (c, b)
/-- when the region is entered: the thirty host operations before it have run; -/
abbrev V0 (c : Dev nD) : Valuation τ sig (Elt F) := StableHlo.after hostOps0 (V₀ m c)
/-- the same read at a TensorCore reference. -/
abbrev V (c : Dev nD) (b : Ref sig .tc) : Buf (Elt F) ((c : Thread nD τ).loc b) := V0 m c (Proc.devRef .tc b)

/-- The stacked rows as the region finds them. -/
abbrev reps (c : Dev nD) : Vec F S8192x256 .bf16 := V m c main_v17

/-- The first input window's block at point `t`: rows 1024 i … of the stacked rows. -/
def xblk (c : Dev nD) (t : Fin cfg0.N) : Vec F S1024x256 .bf16 :=
  ((cfg0.win 0).blk t).view.read (Elt F) (V m c main_v17)
/-- The second input window's block at point `t`: rows 1024 j … of the stacked rows. -/
def yblk (c : Dev nD) (t : Fin cfg0.N) : Vec F S1024x256 .bf16 :=
  ((cfg0.win 1).blk t).view.read (Elt F) (V m c main_v17)

/-- One point's update of the scratch column: the body's stored payload over the two blocks and the
    column found. -/
def step (c : Dev nD) (n : Nat) (prev : Vec F S1024x1 .f32) : Vec F S1024x1 .f32 :=
  if h : n < cfg0.N then k0_pay2 (grid0.coords ⟨n, h⟩) (xblk m c ⟨n, h⟩) (yblk m c ⟨n, h⟩) prev else prev

/-- The scratch column after point `n`: cleared at the first point of each row of the grid
    (n ≡ 0 mod 8), then one update per point. -/
def accN (c : Dev nD) : Nat → Vec F S1024x1 .f32
  | 0 => step m c 0 (k0_pay1 (F := F))
  | n + 1 => step m c (n + 1) (if (n + 1) % 8 = 0 then k0_pay1 (F := F) else accN c n)

/-- The scratch buffer as a memref. -/
abbrev scM : Memref sig .tc .vmem S1024x1 .f32 := Memref.whole cc0_scratch0

/-- The invariant between points: the scratch column holds what the point before left (anything
    before the first point). -/
def Φc (c : Dev nD) (t : Fin (cfg0.N + 1)) : sProp 𝕄 :=
  match t.val with
  | 0 => iprop(∃ d, owns (c : Thread nD τ) scM fullShare d)
  | n + 1 => owns (c : Thread nD τ) scM fullShare (accN m c n)

/-- The pipeline's proof data on core `c`: the arrays as the region finds them; the input blocks
    left in place; the output window's buffer, where the body stores into it, at the scratch column;
    the stacked rows' buffer shared by halves between the two input windows; nothing owed. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => yblk m c t
    | ⟨2, _⟩ => accN m c t.val
  Φ t := Φc m c t
  q w := match w with
    | ⟨0, _⟩ => fullShare.left
    | ⟨1, _⟩ => fullShare.right
    | ⟨2, _⟩ => fullShare
  owed _ := 0

end Cert.KernelIdeal.Denom

end
-- ==== Proof.KI.Body.lean ====
/- The body obligation of the pairwise-similarity kernel: at every grid point, from the scratch
   column as the point before left it and the three windows' current buffers, the kernel body runs
   and leaves the scratch column updated (cleared first at j = 0), the input blocks in place, and at
   j = 7 the output window's buffer at the scratch column. -/
import proofs.«159083_j35948876267977_1_alg».proof.Proof.KI.Data
import Idealize.ShloMosaic.Lib.Pipeline.Value

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, over the grid -/

/-- The first conditional's test, from the grid coordinates: the inner coordinate is 0. -/
abbrev cond1 (i : grid0.Coords) : Prop :=
  (Scalar.cmpi .ne (Scalar.extui (Scalar.cmpi .eq (BitVec.ofNat 32 (i 1).val) 0#32)) 0#32) = 1#1
/-- It holds at the points ≡ 0 (mod 8). -/
theorem hcond1 : ∀ t : Fin cfg0.N, cond1 (grid0.coords t) ↔ t.val % 8 = 0 :=
  (by decide +kernel : ∀ t : Fin grid0.N, cond1 (grid0.coords t) ↔ t.val % 8 = 0)

/-- The second conditional's test: the inner coordinate is 7. -/
abbrev cond2 (i : grid0.Coords) : Prop := k0_cond2 i = 1#1
/-- It holds at the points ≡ 7 (mod 8). -/
theorem hcond2 : ∀ t : Fin cfg0.N, cond2 (grid0.coords t) ↔ t.val % 8 = 7 :=
  (by decide +kernel : ∀ t : Fin grid0.N, cond2 (grid0.coords t) ↔ t.val % 8 = 7)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output window is idle exactly off the points ≡ 7 (mod 8), -/
theorem idle2 : ∀ t : Fin cfg0.N, ¬t.val % 8 = 7 → cfg0.idle 2 (grid0.coords t) = true := by decide +kernel
theorem live2 : ∀ t : Fin cfg0.N, t.val % 8 = 7 → cfg0.idle 2 (grid0.coords t) = false := by decide +kernel
/-- and not written back there. -/
theorem noflush2 (t : Fin cfg0.N) (h : ¬t.val % 8 = 7) : (cfg0.win 2).flush t = false := by
  cases hf : (cfg0.win 2).flush t
  · rfl
  · exact absurd ((flush0_2 t).mp hf) h

/-! ## Whole-buffer loads and stores -/

theorem off00 : (![0, 0] : Fin 2 → ℕ) = fun _ => 0 := by funext a; fin_cases a <;> rfl

section views
variable {sg : RefSig} {κ : Kind} {sp : Space} {S : Shape} {e : EltTy}

/-- A load through the whole-shape rectangle at zero offsets reads what the view reads. -/
theorem readAt_unit0 (v : View sg κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f := by
  rw [View.readAt_eq_ld]; exact View.ld_unit_zero h inb _

/-- After a last store through it the view reads that store's payload. -/
theorem read_writes_unit0 (v : View sg κ sp S e) {off : Fin S.rank → ℕ} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L
end views

/-! ## The kernel body on any whole memrefs, case by case -/

set_option maxHeartbeats 1000000 in
/-- At a point with inner coordinate 0: the scratch column, whatever it held, is cleared and then
    updated; the input buffers are left as found; the output buffer is not touched. -/
theorem runA (c : Dev nD) (i : grid0.Coords)
    (arg2 : Memref sig .tc .vmem S1024x256 .bf16) (harg2 : arg2.IsWhole)
    (arg3 : Memref sig .tc .vmem S1024x256 .bf16) (harg3 : arg3.IsWhole)
    (arg4 : Memref sig .tc .vmem S1024x1 .f32) (harg4 : arg4.IsWhole)
    (arg5 : Memref sig .tc .vmem S1024x1 .f32) (harg5 : arg5.IsWhole)
    (hc0 : cond1 i) (hc1 : ¬cond2 i)
    (x0 y0 : Vec F S1024x256 .bf16) (E : Set ℕ) (K : PUnit → sProp 𝕄) :
    iprop(owns (c : Thread nD τ) arg2 fullShare x0 ∗ owns (c : Thread nD τ) arg3 fullShare y0
        ∗ (∃ d, owns (c : Thread nD τ) arg5 fullShare d)
        ∗ (iprop(owns (c : Thread nD τ) arg2 fullShare x0 ∗ owns (c : Thread nD τ) arg3 fullShare y0
            ∗ owns (c : Thread nD τ) arg5 fullShare (k0_pay2 i x0 y0 (k0_pay1 (F := F)))) -∗ K ⟨⟩))
      ⊢ wp frame (wpE (defs₀ (F := F)) Variants.none c none) E
          (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_run_names
  rw [read_writes_unit0 _ off00, View.readCov_unit_zero _ off00, readAt_unit0 _ off00, readAt_unit0 _ off00,
    hf0, hf1]

set_option maxHeartbeats 1000000 in
/-- At a point with inner coordinate strictly between 0 and 7: the scratch column is updated from
    what the point before left; nothing else changes. -/
theorem runB (c : Dev nD) (i : grid0.Coords)
    (arg2 : Memref sig .tc .vmem S1024x256 .bf16) (harg2 : arg2.IsWhole)
    (arg3 : Memref sig .tc .vmem S1024x256 .bf16) (harg3 : arg3.IsWhole)
    (arg4 : Memref sig .tc .vmem S1024x1 .f32) (harg4 : arg4.IsWhole)
    (arg5 : Memref sig .tc .vmem S1024x1 .f32) (harg5 : arg5.IsWhole)
    (hc0 : ¬cond1 i) (hc1 : ¬cond2 i)
    (x0 y0 : Vec F S1024x256 .bf16) (a0 : Vec F S1024x1 .f32) (E : Set ℕ) (K : PUnit → sProp 𝕄) :
    iprop(owns (c : Thread nD τ) arg2 fullShare x0 ∗ owns (c : Thread nD τ) arg3 fullShare y0
        ∗ owns (c : Thread nD τ) arg5 fullShare a0
        ∗ (iprop(owns (c : Thread nD τ) arg2 fullShare x0 ∗ owns (c : Thread nD τ) arg3 fullShare y0
            ∗ owns (c : Thread nD τ) arg5 fullShare (k0_pay2 i x0 y0 a0)) -∗ K ⟨⟩))
      ⊢ wp frame (wpE (defs₀ (F := F)) Variants.none c none) E
          (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_unit0 _ off00, readAt_unit0 _ off00, readAt_unit0 _ off00, readAt_unit0 _ off00, hf0, hf1, hfs]

set_option maxHeartbeats 1000000 in
/-- At a point with inner coordinate 7: the scratch column is updated from what the point before
    left, and then copied into the output buffer, whatever that held. -/
theorem runC (c : Dev nD) (i : grid0.Coords)
    (arg2 : Memref sig .tc .vmem S1024x256 .bf16) (harg2 : arg2.IsWhole)
    (arg3 : Memref sig .tc .vmem S1024x256 .bf16) (harg3 : arg3.IsWhole)
    (arg4 : Memref sig .tc .vmem S1024x1 .f32) (harg4 : arg4.IsWhole)
    (arg5 : Memref sig .tc .vmem S1024x1 .f32) (harg5 : arg5.IsWhole)
    (hc0 : ¬cond1 i) (hc1 : cond2 i)
    (x0 y0 : Vec F S1024x256 .bf16) (a0 : Vec F S1024x1 .f32) (E : Set ℕ) (K : PUnit → sProp 𝕄) :
    iprop(owns (c : Thread nD τ) arg2 fullShare x0 ∗ owns (c : Thread nD τ) arg3 fullShare y0
        ∗ (∃ d, owns (c : Thread nD τ) arg4 fullShare d)
        ∗ owns (c : Thread nD τ) arg5 fullShare a0
        ∗ (iprop(owns (c : Thread nD τ) arg2 fullShare x0 ∗ owns (c : Thread nD τ) arg3 fullShare y0
            ∗ owns (c : Thread nD τ) arg4 fullShare (k0_pay2 i x0 y0 a0)
            ∗ owns (c : Thread nD τ) arg5 fullShare (k0_pay2 i x0 y0 a0)) -∗ K ⟨⟩))
      ⊢ wp frame (wpE (defs₀ (F := F)) Variants.none c none) E
          (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_run_names
    rw [read_writes_unit0 _ off00, View.readCov_unit_zero _ off00, readAt_unit0 _ off00, readAt_unit0 _ off00,
      readAt_unit0 _ off00, hf0, hf1, hfs]
  iexists _; isplitr
  swap; · iexact HS
  ipureintro
  sl_unfold_run_names
  rw [read_writes_unit0 _ off00, readAt_unit0 _ off00, readAt_unit0 _ off00, readAt_unit0 _ off00, hf0, hf1, hfs]

variable (m : (ℓ : Loc nD τ sig) → Buf (Elt F) ℓ)

/-! ## The scratch column, point by point -/

/-- One point's update at a point of the grid. -/
theorem step_lt (c : Dev nD) (t : Fin cfg0.N) (prev : Vec F S1024x1 .f32) :
    step m c t.val prev = k0_pay2 (grid0.coords t) (xblk m c t) (yblk m c t) prev := by
  unfold step; rw [dif_pos t.isLt]

/-- The scratch column after point `n`, in one equation. -/
theorem accN_eq (c : Dev nD) (n : ℕ) :
    accN m c n = step m c n (if n % 8 = 0 then k0_pay1 (F := F) else accN m c (n - 1)) := by
  cases n with
  | zero => rfl
  | succ n => rfl

theorem accN_A (c : Dev nD) (t : Fin cfg0.N) (h : t.val % 8 = 0) :
    accN m c t.val = k0_pay2 (grid0.coords t) (xblk m c t) (yblk m c t) (k0_pay1 (F := F)) := by
  rw [accN_eq, if_pos h, step_lt]

theorem accN_BC (c : Dev nD) (t : Fin cfg0.N) (h : ¬t.val % 8 = 0) :
    accN m c t.val = k0_pay2 (grid0.coords t) (xblk m c t) (yblk m c t) (accN m c (t.val - 1)) := by
  rw [accN_eq, if_neg h, step_lt]

/-- The invariant before the first point, -/
theorem Φc_zero (c : Dev nD) (t : Fin (cfg0.N + 1)) (h : t.val = 0) :
    Φc m c t = iprop(∃ d, owns (c : Thread nD τ) scM fullShare d) := by
  unfold Φc; rw [h]
/-- and after point `n`. -/
theorem Φc_pos (c : Dev nD) (t : Fin (cfg0.N + 1)) (n : ℕ) (h : t.val = n + 1) :
    Φc m c t = owns (c : Thread nD τ) scM fullShare (accN m c n) := by
  unfold Φc; rw [h]

/-- Whatever the invariant says of the scratch column, it is owned at some contents. -/
theorem Φc_some (c : Dev nD) (t : Fin (cfg0.N + 1)) :
    Φc m c t ⊢ iprop(∃ d, owns (c : Thread nD τ) scM fullShare d) := by
  rcases Nat.eq_zero_or_pos t.val with h | h
  · rw [Φc_zero m c t h]
  · rw [Φc_pos m c t (t.val - 1) (by omega)]
    iintro H; iexists _; iexact H

/-! ## The proof data, projected -/

theorem A_eq (c : Dev nD) (w : Fin cfg0.W) : (dats m 0 c).A w = V m c (Pipeline.arrRef spec0 w) := by
  dsimp only [dats]
theorem after0 (c : Dev nD) (t : Fin cfg0.N) : (dats m 0 c).after 0 t = xblk m c t := by dsimp only [dats]
theorem after1 (c : Dev nD) (t : Fin cfg0.N) : (dats m 0 c).after 1 t = yblk m c t := by dsimp only [dats]
theorem after2 (c : Dev nD) (t : Fin cfg0.N) : (dats m 0 c).after 2 t = accN m c t.val := by dsimp only [dats]

/-- Each input window's current buffer holds its block at every point, fetched there or not. -/
theorem before0 (c : Dev nD) (t : Fin cfg0.N) (d) : (dats m 0 c).before 0 t d = xblk m c t :=
  ((dats m 0 c).before_in_eq_fetched 0 rfl (fun _ => rfl) (fun _ _ _ => rfl)
      (fun t => by rw [after0]; unfold Dat.blockOf xblk; rw [A_eq]; try rfl) t d).trans
    (by unfold Dat.fetched Dat.blockOf xblk; rw [A_eq]; try rfl)
theorem before1 (c : Dev nD) (t : Fin cfg0.N) (d) : (dats m 0 c).before 1 t d = yblk m c t :=
  ((dats m 0 c).before_in_eq_fetched 1 rfl (fun _ => rfl) (fun _ _ _ => rfl)
      (fun t => by rw [after1]; unfold Dat.blockOf yblk; rw [A_eq]; try rfl) t d).trans
    (by unfold Dat.fetched Dat.blockOf yblk; rw [A_eq]; try rfl)

/-! ## The body obligation, at a generic point -/

/-- Each window's current staging memref at point `t`, as the pipeline passes it to the body. -/
abbrev ms0 (t : Fin cfg0.N) : Memref sig .tc .vmem S1024x256 .bf16 := win0_0.stage (cfg0.slots t 0)
abbrev ms1 (t : Fin cfg0.N) : Memref sig .tc .vmem S1024x256 .bf16 := win0_1.stage (cfg0.slots t 1)
abbrev ms2 (t : Fin cfg0.N) : Memref sig .tc .vmem S1024x1 .f32 := win0_2.stage (cfg0.slots t 2)

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the input buffers hold their blocks; the point's inner coordinate says
    which of the three runs applies; the scratch column goes from what the point before left (anything,
    where it is cleared first) to this point's; the output buffer is handed back untouched off the
    points with inner coordinate 7 and holds the scratch column there; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = Φc m c t.succ from rfl, Φc_pos m c t.succ t.val rfl]
  rw [show (dats m 0 c).Φ t.castSucc = Φc m c t.castSucc from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 64 := lt_of_lt_of_eq t.isLt (show cfg0.N = 64 from N_0)
  by_cases h0 : t.val % 8 = 0
  · have h7 : ¬t.val % 8 = 7 := by omega
    rw [Dat.leavesExact_idle (dats m 0 c) 2 t (idle2 t h7) (noflush2 t h7), accN_A m c t h0]
    iintro ⟨HS, Ho, ⟨%d0, H0⟩, ⟨%d1, H1⟩, H2⟩
    iapply (runA c (grid0.coords t) _ _ _ _ _ _ _ _ ((hcond1 t).mpr h0) (fun h => h7 ((hcond2 t).mp h))
      (xblk m c t) (yblk m c t) Set.univ _)
    isplitl [H0]; · iexact H0
    isplitl [H1]; · iexact H1
    isplitl [HS]; · iapply (Φc_some m c t.castSucc); iexact HS
    iintro ⟨H0, H1, HS⟩
    isplitl [HS]; · iexact HS
    isplitl [Ho]; · iexact Ho
    isplitl [H0]; · iexact H0
    isplitl [H1]; · iexact H1
    iexact H2
  · have hz : t.castSucc.val = (t.val - 1) + 1 := by rw [Fin.coe_castSucc]; omega
    rw [Φc_pos m c t.castSucc (t.val - 1) hz, accN_BC m c t h0]
    by_cases h7 : t.val % 8 = 7
    · rw [show (dats m 0 c).leavesExact 2 t = owns (c : Thread nD τ) (ms2 t) fullShare ((dats m 0 c).after 2 t) from by
        unfold Dat.leavesExact; rw [live2 t h7], after2, accN_BC m c t h0]
      iintro ⟨HS, Ho, ⟨%d0, H0⟩, ⟨%d1, H1⟩, ⟨%d2, H2⟩⟩
      iapply (runC c (grid0.coords t) _ _ _ _ _ _ _ _ (fun h => h0 ((hcond1 t).mp h)) ((hcond2 t).mpr h7)
        (xblk m c t) (yblk m c t) (accN m c (t.val - 1)) Set.univ _)
      isplitl [H0]; · iexact H0
      isplitl [H1]; · iexact H1
      isplitl [H2]; · iexists _; iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · rw [Dat.leavesExact_idle (dats m 0 c) 2 t (idle2 t h7) (noflush2 t h7)]
      iintro ⟨HS, Ho, ⟨%d0, H0⟩, ⟨%d1, H1⟩, H2⟩
      iapply (runB c (grid0.coords t) _ _ _ _ _ _ _ _ (fun h => h0 ((hcond1 t).mp h)) (fun h => h7 ((hcond2 t).mp h))
        (xblk m c t) (yblk m c t) (accN m c (t.val - 1)) Set.univ _)
      isplitl [H0]; · iexact H0
      isplitl [H1]; · iexact H1
      isplitl [HS]; · iexact HS
      iintro ⟨H0, H1, HS⟩
      isplitl [HS]; · iexact HS
      isplitl [Ho]; · iexact Ho
      isplitl [H0]; · iexact H0
      isplitl [H1]; · iexact H1
      iexact H2

/-- The library's body obligation for the proof data `dats`. -/
theorem body_obligation (c : Dev nD) :
    BodyObligation (dats m 0 c) (defs₀ (F := F)) Variants.none () Set.univ := fun t => by
  rw [bigSep_W0, bigSep_W0]
  exact sound_body m c t

end Cert.KernelIdeal.Denom

end
-- ==== Proof.KI.Launch.lean ====
/- The launch of the pairwise-similarity program: thirty host operations, the kernel region, eight
   host operations.  From any memory with zero counters every weakly fair execution terminates,
   nothing faulting, and every unscoped buffer ends at the value the host operations compute around
   the region's result.  The region's two input windows read one array: its buffer is held by halves
   through the region and whole outside it. -/
import proofs.«159083_j35948876267977_1_alg».proof.Proof.KI.Body

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers when the region is left: the kernel's result array at what the write-backs made of
    it, every other buffer as the region found it. -/
def Vmid (c : Dev nD) : Valuation τ sig (Elt F) := by
  classical
  exact Function.update (V0 m c) (Proc.devRef .tc main_v24) ((dats m 0 c).arrAt 2 cfg0.N)

/-- The buffers at the end: the eight host operations after the region have run. -/
def Wfin (c : Dev nD) : Valuation τ sig (Elt F) := StableHlo.after hostOps1 (Vmid m c)

/-- No loop variant is needed. -/
private abbrev 𝒱₀ : Variants := Variants.none
/-- No core owes another anything: no level is assigned. -/
private abbrev L : GSem nD τ sig → Finset Unit := fun _ => ∅
private abbrev lv : GSem nD τ sig → Unit → ℕ := fun _ _ => 0
/-- The prefetched tables' admissible contents: no table. -/
private abbrev adm : (p : Fin 1) → (pcfgs (F := F) p).Adm := fun p => (cfgs p).toPCfg_adm
/-- What rides beside the buffers through every segment: that the core owes nothing. -/
private abbrev R (c : Dev nD) : sProp 𝕄 := iprop(∃ W, owes (c : Thread nD τ) (0 : CellTallies nD τ sig Unit) W)

/-- The thirty host operations before the region, over the unscoped buffers. -/
private def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The eight host operations after the region, over the unscoped buffers. -/
private def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vmid m) R

/-- The windows' arrays at contents `G`: the stacked rows' buffer by halves, the result's buffer whole. -/
private theorem arrays_eq3 (c : Dev nD) (G : (w : Fin cfg0.W) → Buf (Elt F) ((cfg0.win w).arr.view.loc (c.tc : Thread nD τ))) :
    ((dats m 0 c).arrays G : sProp 𝕄)
      = iprop((((c.tc : Thread nD τ).loc main_v17) ↦{fullShare.left} G 0) ∗ (((c.tc : Thread nD τ).loc main_v17) ↦{fullShare.right} G 1)
          ∗ (((c.tc : Thread nD τ).loc main_v24) ↦{fullShare} G 2)) := by
  unfold Dat.arrays
  rw [bigSep_W0]
  rw [(arr_whole0 0).set_eq_univ, (arr_whole0 2).set_eq_univ]
  rfl

/-- The buffers behind the windows' arrays are two. -/
private theorem arrBufs_eq2 (c : Dev nD) (W : (b : Ref sig .tc) → Buf (Elt F) ((c.tc : Thread nD τ).loc b)) :
    (Pipeline.arrBufs spec0 c W : sProp 𝕄)
      = iprop((((c.tc : Thread nD τ).loc main_v17) ↦{fullShare} W main_v17) ∗ (((c.tc : Thread nD τ).loc main_v24) ↦{fullShare} W main_v24)) := by
  unfold Pipeline.arrBufs
  rw [show Finset.univ.image (Pipeline.arrRef spec0) = {main_v17, main_v24} from by decide, bigSep_insert (by decide), bigSep_singleton]
  rfl

/-- At the region's entry the two buffers, the stacked rows' split by halves, are the windows' arrays. -/
private theorem entry_arrays (c : Dev nD) :
    (Pipeline.arrBufs spec0 c (V m c) : sProp 𝕄) ⊢ (dats m 0 c).arrays (fun w => (dats m 0 c).arrAt w 0) := by
  rw [arrBufs_eq2, arrays_eq3]
  rw [show (dats m 0 c).arrAt 0 0 = V m c main_v17 from rfl, show (dats m 0 c).arrAt 1 0 = V m c main_v17 from rfl,
    show (dats m 0 c).arrAt 2 0 = V m c main_v24 from rfl]
  iintro ⟨H17, H24⟩
  ihave H17 := (pointsTo_share (PosShare.mem_left_op_right fullShare)).1 $$ H17
  icases H17 with ⟨Hl, Hr⟩
  isplitl [Hl]; · iexact Hl
  isplitl [Hr]; · iexact Hr
  iexact H24

/-- The exit valuation at the stacked rows' buffer. -/
theorem Vmid_v17 (c : Dev nD) : Vmid m c (Proc.devRef .tc main_v17) = V m c main_v17 := by
  unfold Vmid
  exact Function.update_of_ne (StableHlo.devRef_ne_of_ne (by decide)) _ _

/-- The exit valuation at the result's buffer. -/
theorem Vmid_v24 (c : Dev nD) : Vmid m c (Proc.devRef .tc main_v24) = (dats m 0 c).arrAt 2 cfg0.N := by
  unfold Vmid
  exact Function.update_self _ _ _

/-- The exit valuation off the result's buffer. -/
theorem Vmid_of_ne (c : Dev nD) {b : Ref sig .tc} (hb : b ≠ main_v24) : Vmid m c (Proc.devRef .tc b) = V m c b := by
  unfold Vmid
  exact Function.update_of_ne (StableHlo.devRef_ne_of_ne hb) _ _

/-- At the region's exit the windows' arrays, the stacked rows' halves rejoined, are the two buffers at the exit
    valuation. -/
private theorem exit_arrays (c : Dev nD) :
    ((dats m 0 c).arrays (fun w => (dats m 0 c).arrAt w cfg0.N) : sProp 𝕄)
      ⊢ Pipeline.arrBufs spec0 c (fun b => Vmid m c (Proc.devRef .tc b)) := by
  rw [arrBufs_eq2, arrays_eq3]
  rw [show (dats m 0 c).arrAt 0 cfg0.N = V m c main_v17 from (dats m 0 c).arrAt_in 0 rfl _,
    show (dats m 0 c).arrAt 1 cfg0.N = V m c main_v17 from (dats m 0 c).arrAt_in 1 rfl _, Vmid_v17, Vmid_v24]
  iintro ⟨Hl, Hr, H24⟩
  isplitr [H24]
  · iapply (pointsTo_share (PosShare.mem_left_op_right fullShare)).2
    isplitl [Hl] <;> iassumption
  iexact H24

/-- The buffers that are no window's array are unchanged by the region. -/
private theorem rest_eq (c : Dev nD) :
    (Pipeline.unscopedRest spec0 c (fun b => Vmid m c (Proc.devRef .tc b)) : sProp 𝕄) = Pipeline.unscopedRest spec0 c (V m c) := by
  unfold Pipeline.unscopedRest
  refine bigSep_congr fun b hb => ?_
  have hne : b ≠ main_v24 := fun h => (Finset.mem_sdiff.mp hb).2 (Finset.mem_image.mpr ⟨2, Finset.mem_univ _, h.symm⟩)
  exact congrArg (fun x => (((c.tc : Thread nD τ).loc b) ↦{fullShare} x : sProp 𝕄)) (Vmid_of_ne m c hne)

set_option backward.isDefEq.respectTransparency.types false in
/-- The region: entered from the buffers the first host stretch left, the stacked rows' buffer dealt by halves to the
    two input windows, every buffer that is no window's array bypassing; left with the result's buffer at what the
    write-backs made of it. -/
private def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (Vmid m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c)
        from (Pipeline.unscopedBufs_held c _).symm,
      Pipeline.unscopedBufs_split₀ (Pipeline.pin (pcfgs (F := F)) adm) 0 winFacts₀0.arr_unscoped c (V m c)]
    iintro ⟨⟨⟨Ha, Hz⟩, HO⟩, -, -⟩
    ihave Ha := (entry_arrays m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = iprop(∃ d, owns (c : Thread nD τ) scM fullShare d) from rfl,
      show Pipeline.scopedRest (Ix := Unit) (Name := ℕ) (U := UR sig nD τ) (Lvl := ℕ) (Val := Elt F) (Pipeline.pin (pcfgs (F := F)) adm 0).spec c
        = Pipeline.scopedRest spec0 c from rfl, scopedRest0_eq]
    simp only [owns_whole]
    iintro ⟨-, -, ⟨%f, H⟩⟩
    iexists f; iexact H
  hout c := by
    rw [Pipeline.ownSems0_none, show (dats m 0 c).Φ (Fin.last (Pipeline.pin (pcfgs (F := F)) adm 0).N) = owns (c : Thread nD τ) scM fullShare (accN m c 63) from rfl,
      show Pipeline.scopedRest (Ix := Unit) (Name := ℕ) (U := UR sig nD τ) (Lvl := ℕ) (Val := Elt F) (Pipeline.pin (pcfgs (F := F)) adm 0).spec c
        = Pipeline.scopedRest spec0 c from rfl, scopedRest0_eq]
    simp only [owns_whole]
    iintro H
    isplitr; · iempintro
    isplitr; · iempintro
    iexists _; iexact H
  hexit c := by
    rw [← Pipeline.unscopedBufs_held c (Vmid m c),
      Pipeline.unscopedBufs_split₀ (Pipeline.pin (pcfgs (F := F)) adm) 0 winFacts₀0.arr_unscoped c (fun b => Vmid m c (Proc.devRef .tc b)), rest_eq]
    iintro ⟨Ha, HO, -, Hz⟩
    ihave Ha := (exit_arrays m c) $$ Ha
    imodintro
    isplitr [HO]
    · isplitl [Ha]; · iexact Ha
      iexact Hz
    · unfold Pipeline.Dat.owesAt Pipeline.owesWithin
      icases HO with ⟨%W, -, HO⟩; iexists W; iexact HO

/-- @main as the list of the three segments. -/
private abbrev segs : List (Pipeline.Seg (pcfgs (F := F)) adm (dats m) () defs₀ 𝒱₀ L lv) := [.host (seg0 m), .region (reg0 m), .host (seg1 m)]

set_option backward.isDefEq.respectTransparency.types false in
/-- The run of @main. -/
theorem run_main (g : Dev nD → PrngReg) :
    θ_run defs (onTc (τ := τ) (main (F := F))) ⟨m, fun _ => 0, g⟩
      (fun r => ∀ c : Dev nD, ∀ b : Ref sig .tc, b.isScoped = false →
        r.2.mem ((c.tc : Thread nD τ).loc b) = Wfin m c (Proc.devRef .tc b)) :=
  Pipeline.θ_run_regions_kit (pcfgs (F := F)) adm (dats m) () cellOf_inj emb₁ defs₀ 𝒱₀ L lv m g main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b : Ref sig .tc, b.isScoped = false → s.mem ((c.tc : Thread nD τ).loc b) = Wfin m c (Proc.devRef .tc b))
    (hfin := fun c s' => by
      rw [← Pipeline.unscopedBufs_held c (Wfin m c)]
      unfold unscopedBufs
      iintro ⟨H, HSI⟩
      ihave Hr := (pointsTo_read_all (Finset.univ.filter fun b : Ref sig .tc => ¬ b.isScoped) (fun b => (c.tc : Thread nD τ).loc b)
        (fun b => Wfin m c (Proc.devRef .tc b)) s') $$ [H HSI]
      · isplitl [H] <;> iassumption
      icases Hr with ⟨%h, HSI⟩
      imodintro
      isplitr
      · ipureintro
        exact fun b hb => h b (Finset.mem_filter.mpr ⟨Finset.mem_univ _, by rw [hb]; exact Bool.false_ne_true⟩)
      iexact HSI)
    (hQ := fun _ h => h)

end Cert.KernelIdeal.Denom

end
-- ==== Proof.Spec.lean ====
/- The contrastive loss both programs compute, written once over the extended reals.

   From two families of 4096 normalised rows `A`, `B` (256 entries each): the stacked rows `rows`
   (A's, then B's); the inner product `sim` of two stacked rows; for each stacked row r the
   denominator `den`, the sum over every OTHER stacked row c of exp(2 · sim r c); for each pair p the
   positive term `pos`, the inner product of A's row p with B's row p; and the loss, the mean over the
   8192 stacked rows of −log(exp(pos / ½) / den).  The float literals are kept as the words the
   programs print (½ is 0x3F000000, 2 is 0x40000000, 8192 is 0x46000000). -/
import Idealize.ShloMosaic.PureOps.Ideal
import Idealize.ShloMosaic.PureOps.Ideal.Laws

noncomputable section

namespace Cert.Spec

open Idealize.ShloMosaic

/-- The stacked rows: A's 4096 rows, then B's. -/
def rows (A B : Fin 4096 → Fin 256 → EReal) (r : Fin 8192) (k : Fin 256) : EReal :=
  if h : r.val < 4096 then A ⟨r.val, h⟩ k else B ⟨r.val - 4096, by have := r.isLt; omega⟩ k

/-- The inner product of stacked rows r and c. -/
def sim (R : Fin 8192 → Fin 256 → EReal) (r c : Fin 8192) : EReal := ∑ k : Fin 256, R r k * R c k

/-- One masked term of a denominator: nothing on the diagonal, exp(2 · sim) off it. -/
def term (R : Fin 8192 → Fin 256 → EReal) (r c : Fin 8192) : EReal :=
  if r = c then 0 else Ideal.exp (sim R r c * Ideal.ofBits .f32 0x40000000#32)

/-- Row r's denominator: the sum of its masked terms over all stacked rows. -/
def den (R : Fin 8192 → Fin 256 → EReal) (r : Fin 8192) : EReal := ∑ c : Fin 8192, term R r c

/-- Pair p's positive term: ⟨A p, B p⟩. -/
def pos (A B : Fin 4096 → Fin 256 → EReal) (p : Fin 4096) : EReal := ∑ k : Fin 256, A p k * B p k

/-- The pair a stacked row belongs to. -/
def pairOf (r : Fin 8192) : Fin 4096 := ⟨r.val % 4096, Nat.mod_lt _ (by decide)⟩

/-- Stacked row r's summand of the loss, from its positive term and its denominator. -/
def summand (P D : EReal) : EReal :=
  -(Ideal.log (Ideal.div (Ideal.exp (Ideal.div P (Ideal.ofBits .f32 0x3F000000#32))) D))

/-- The loss: the mean of the 8192 summands. -/
def loss (A B : Fin 4096 → Fin 256 → EReal) : EReal :=
  Ideal.div (Ideal.ofBits .f32 0x00000000#32 + ∑ r : Fin 8192, summand (pos A B (pairOf r)) (den (rows A B) r))
    (Ideal.ofBits .f32 0x46000000#32)

end Cert.Spec

end
-- ==== Proof.KIV.Pay.lean ====
/- The kernel body's two stored payloads at the ideal instance, read entry by entry: the cleared
   column is zero, and the updated column adds to the column found, in each row p, the masked row
   sum over the second block's 1024 rows q of exp(2 · ⟨x p, y q⟩), the term with global row index
   equal to global column index left out. -/
import proofs.«159083_j35948876267977_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenomValue

open Cert.KernelIdeal Cert.KernelIdeal.Gen
open Idealize.ShloMosaic Idealize.ShloMosaic.TcCoe Idealize.ShloMosaic.ValueIdx
open Idealize.SL.Sem

/-! ## Layout and index operations read at explicit coordinates -/

/-- A column cast [1024] → [1024, 1] read in row p is the vector's entry p. -/
private theorem col_apply {α : Type} (v : S1024.Idx → α) (h : S1024.ShapeCasts S1024x1) (p : Fin 1024) :
    shapeCast S1024x1 v h (ix2 p 0) = v (ix1 p) := by
  refine shapeCast_apply v h (ix2 p 0) (ix1 p) ?_
  rw [Shape.rowMajor_val_one, Shape.rowMajor_val_two]
  show p.val = p.val * 1 + 0
  omega

/-- A transpose [1024, 256] → [256, 1024] read at (k, q) is the operand at (q, k). -/
private theorem tr_apply {α : Type} (y : S1024x256.Idx → α) (h : S1024x256.Transposes [1, 0] S256x1024)
    (k : Fin 256) (q : Fin 1024) : transpose S256x1024 [1, 0] y h (ix2 k q) = y (ix2 q k) :=
  transpose_apply [1, 0] y h (ix2 k q) (ix2 q k) (fun b => match b with
    | ⟨0, _⟩ => rfl
    | ⟨1, _⟩ => rfl)

/-- The row iota at (p, q) is p. -/
private theorem iota0_apply (h : S1024x1024.Iotas .tc 32 [0]) (p q : Fin 1024) :
    iota .tc S1024x1024 32 [0] h (ix2 p q) = BitVec.ofNat 32 p.val :=
  iota_single_apply .tc S1024x1024 32 0 h (ix2 p q)

/-- The column iota at (p, q) is q. -/
private theorem iota1_apply (h : S1024x1024.Iotas .tc 32 [1]) (p q : Fin 1024) :
    iota .tc S1024x1024 32 [1] h (ix2 p q) = BitVec.ofNat 32 q.val :=
  iota_single_apply .tc S1024x1024 32 1 h (ix2 p q)

/-! ## The lane sum and the matrix product at an entry -/

/-- The lane sum over axis 1 of a [1024, 1024] vector, read in row p: the sum of row p's entries. -/
private theorem rowsum_apply (src : FVec Ideal S1024x1024 .f32) (h : S1024x1024.Reduces [1] S1024)
    (hφ : FKind.Formats .f32) (hacc : (0x00000000#32 : BitVec 32) = FKind.add.neutral .f32 hφ) (p : Fin 1024) :
    multiReduction (F := Ideal) .add [1] S1024 src 0x00000000#32 h hφ hacc (ix1 p) = ∑ q : Fin 1024, src (ix2 p q) := by
  refine (Ideal.multiReduction_add_single src 0x00000000#32 h hφ hacc (ix1 p)).trans ?_
  show ∑ q : Fin 1024, src (h.lift (ix1 p) q) = _
  refine Finset.sum_congr rfl fun q _ => congrArg src ?_
  exact Shape.idx_ext₂ rfl rfl

/-- The left operand index of the dot at output (·) and contraction index q: its row is the output's row. -/
private theorem lhs_ax0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- Its column is the contraction coordinate. -/
private theorem lhs_ax1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand index: its row is the contraction coordinate. -/
private theorem rhs_ax0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- Its column is the output's column. -/
private theorem rhs_ax1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The matrix product into a zero accumulator, read at (p, q): the sum over the 256 contraction coordinates. -/
private theorem mm_apply (a : FVec Ideal S1024x256 .bf16) (b : FVec Ideal S256x1024 .bf16) (p q : Fin 1024) :
    matmul dot_S1024x256_S256x1024_S1024x1024_1_0_0_1_n_n none a b (constant (F := Ideal) S1024x1024 .f32 0x00000000#32) (ix2 p q)
      = ∑ k : Fin 256, a (ix2 p k) * b (ix2 k q) := by
  refine (Ideal.matmul_constant_zero_apply dot_S1024x256_S256x1024_S1024x1024_1_0_0_1_n_n none a b (ix2 p q)).trans ?_
  rw [← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun c => Fin.ext (by
    match c with
    | ⟨0, _⟩ => exact lhs_ax0 _ _
    | ⟨1, _⟩ => exact (lhs_ax1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun c => Fin.ext (by
    match c with
    | ⟨0, _⟩ => exact (rhs_ax0 _ _).trans hk
    | ⟨1, _⟩ => exact rhs_ax1 _ _)
  rw [el, er]

/-! ## The integer mask -/

/-- The global index word 1024·a + p of block a < 8 and row p < 1024 does not wrap in 32 bits. -/
private theorem word_toNat (a p : Nat) (ha : a < 8) (hp : p < 1024) :
    (IntOp.addi (Scalar.muli (BitVec.ofNat 32 a) 1024#32) (BitVec.ofNat 32 p)).toNat = 1024 * a + p := by
  unfold IntOp.addi Scalar.muli IntOp.muli
  rw [BitVec.toNat_add, BitVec.toNat_mul, BitVec.toNat_ofNat, BitVec.toNat_ofNat]
  show ((a % 2 ^ 32) * 1024 % 2 ^ 32 + p % 2 ^ 32) % 2 ^ 32 = _
  omega

private theorem ofBool_one_iff {b : Bool} : BitVec.ofBool b = 1#1 ↔ b = true := by cases b <;> decide

/-- The mask bit is set exactly where the two global indices agree. -/
private theorem mask_iff (a b p q : Nat) (ha : a < 8) (hb : b < 8) (hp : p < 1024) (hq : q < 1024) :
    IntOp.cmpi .eq (IntOp.addi (Scalar.muli (BitVec.ofNat 32 a) 1024#32) (BitVec.ofNat 32 p))
        (IntOp.addi (Scalar.muli (BitVec.ofNat 32 b) 1024#32) (BitVec.ofNat 32 q)) = 1#1
      ↔ 1024 * a + p = 1024 * b + q := by
  rw [← word_toNat a p ha hp, ← word_toNat b q hb hq, BitVec.toNat_inj]
  unfold IntOp.cmpi
  simp only [ofBool_one_iff, beq_iff_eq]

/-- The mask bit at words r, c that are the row p and the column q. -/
private theorem mask_iff' (a b p q : Nat) (r c : BitVec 32) (ha : a < 8) (hb : b < 8) (hp : p < 1024) (hq : q < 1024)
    (hr : r = BitVec.ofNat 32 p) (hc : c = BitVec.ofNat 32 q) :
    IntOp.cmpi .eq (IntOp.addi (Scalar.muli (BitVec.ofNat 32 a) 1024#32) r)
        (IntOp.addi (Scalar.muli (BitVec.ofNat 32 b) 1024#32) c) = 1#1
      ↔ 1024 * a + p = 1024 * b + q := by
  subst hr hc
  exact mask_iff a b p q ha hb hp hq

/-- One cell of the masked exponential: zero where the mask bit is set, the value elsewhere. -/
private theorem cell_eq (c : BitVec 1) (E : Prop) [Decidable E] (hc : c = 1#1 ↔ E) (z e : EReal) :
    Scalar.select c z e = if E then z else e := by
  by_cases hE : E
  · exact (if_pos (hc.mpr hE)).trans (if_pos hE).symm
  · exact (if_neg (fun h => hE (hc.mp h))).trans (if_neg hE).symm

/-! ## The two payloads -/

/-- The cleared column is zero in every row. -/
theorem pay1_apply (p : Fin 1024) : (k0_pay1 (F := Ideal)) (ix2 p 0) = 0 := by
  unfold k0_pay1
  rw [shapeCast_self]
  exact Ideal.ofBits_zero_f32

/-- The updated column in row p: the column found plus the masked row sum over the second block. -/
theorem pay2_apply (i : grid0.Coords) (x y : Vec Ideal S1024x256 .bf16) (prev : Vec Ideal S1024x1 .f32) (p : Fin 1024) :
    k0_pay2 (F := Ideal) i x y prev (ix2 p 0)
      = prev (ix2 p 0) + ∑ q : Fin 1024,
          (if 1024 * (i 0).val + p.val = 1024 * (i 1).val + q.val then (0 : EReal)
           else Ideal.exp ((∑ k : Fin 256, x (ix2 p k) * y (ix2 q k)) * Ideal.ofBits .f32 0x40000000#32)) := by
  have hi0 : (i 0).val < 8 := (i 0).isLt
  have hi1 : (i 1).val < 8 := (i 1).isLt
  unfold k0_pay2
  dsimp only
  refine (congrFun (shapeCast_self _ _) (ix2 p 0)).trans ?_
  refine congrArg (fun t => prev (ix2 p 0) + t) ?_
  refine (col_apply _ _ p).trans ?_
  refine (rowsum_apply _ _ _ _ p).trans ?_
  refine Finset.sum_congr rfl fun q _ => ?_
  refine (cell_eq _ _ (mask_iff' (i 0).val (i 1).val p.val q.val _ _ hi0 hi1 p.isLt q.isLt
    (iota0_apply _ p q) (iota1_apply _ p q)) _ _).trans (if_congr Iff.rfl ?_ ?_)
  · exact Ideal.ofBits_zero_f32
  · refine congrArg (fun t => Ideal.exp (t * Ideal.ofBits .f32 0x40000000#32)) ?_
    refine (mm_apply _ _ p q).trans ?_
    refine Finset.sum_congr rfl fun k _ => ?_
    exact congrArg₂ (· * ·) (congrFun (shapeCast_self x _) _)
      ((tr_apply _ _ k q).trans (congrFun (shapeCast_self y _) _))

end Cert.KernelIdeal.DenomValue

end
-- ==== Proof.KIV.Den.lean ====
/- The kernel's result array at the ideal instance: after the 64 grid points, row r of the
   8192 × 1 result holds row r's denominator — the sum, over the eight column blocks in turn, of the
   masked row sums exp(2 · ⟨row r, row c⟩), c ≠ r. -/
import proofs.«159083_j35948876267977_1_alg».proof.Proof.KI.Data
import proofs.«159083_j35948876267977_1_alg».proof.Proof.Spec
import proofs.«159083_j35948876267977_1_alg».proof.Proof.KIV.Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenomValue

open Cert.KernelIdeal Cert.KernelIdeal.Gen Cert.KernelIdeal.Denom
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The stacked rows the region reads, entry by entry. -/
abbrev R (c : Dev nD) : Fin 8192 → Fin 256 → EReal :=
  fun r k => (V (F := Ideal) m c main_v17 : Vec Ideal S8192x256 .bf16) (ix2 r k)

/-- The printed index maps and the grid's coordinates, decided over the 64 points. -/
private theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ (grid0.coords t 0).val = t.val / 8 ∧ (grid0.coords t 1).val = t.val % 8 :=
  (by decide +kernel : ∀ t : Fin grid0.N, _)

/-- The first window's block at point t, entry (p, k): entry k of stacked row 1024 (t / 8) + p. -/
private theorem xblk_apply (c : Dev nD) (t : Fin cfg0.N) (p : Fin 1024) (k : Fin 256) (r : Fin 8192)
    (hr : r.val = 1024 * (t.val / 8) + p.val) :
    xblk m c t (ix2 p k) = R m c r k := by
  obtain ⟨e0, e1, -⟩ := idx_facts t
  unfold xblk
  rw [View.read_apply]
  show V m c main_v17 _ = V m c main_v17 _
  congr 1
  funext a
  apply Fin.ext
  match a with
  | ⟨0, _⟩ => show win0_0.index t 0 * 1024 + 1 * p.val = r.val; rw [e0, hr]; omega
  | ⟨1, _⟩ => show win0_0.index t 1 * 256 + 1 * k.val = k.val; rw [e1]; omega

/-- The second window's block at point t, entry (q, k): entry k of stacked row 1024 (t % 8) + q. -/
private theorem yblk_apply (c : Dev nD) (t : Fin cfg0.N) (q : Fin 1024) (k : Fin 256) (r : Fin 8192)
    (hr : r.val = 1024 * (t.val % 8) + q.val) :
    yblk m c t (ix2 q k) = R m c r k := by
  obtain ⟨-, -, e0, e1, -⟩ := idx_facts t
  unfold yblk
  rw [View.read_apply]
  show V m c main_v17 _ = V m c main_v17 _
  congr 1
  funext a
  apply Fin.ext
  match a with
  | ⟨0, _⟩ => show win0_1.index t 0 * 1024 + 1 * q.val = r.val; rw [e0, hr]; omega
  | ⟨1, _⟩ => show win0_1.index t 1 * 256 + 1 * k.val = k.val; rw [e1]; omega

/-- Row r's masked term against stacked row n; nothing past the last row. -/
private def T (c : Dev nD) (r : Fin 8192) (n : Nat) : EReal :=
  if h : n < 8192 then Cert.Spec.term (R m c) r ⟨n, h⟩ else 0

/-- Row r's masked terms summed over column block s (stacked rows 1024 s … 1024 s + 1023). -/
private def blockSum (c : Dev nD) (r : Fin 8192) (s : Nat) : EReal := ∑ q : Fin 1024, T m c r (1024 * s + q.val)

/-- One point's update at row p: what the column held there plus the masked terms of stacked row
    1024 (n / 8) + p summed over column block n % 8. -/
private theorem step_apply (c : Dev nD) (n : Nat) (hn : n < cfg0.N) (prev : Vec Ideal S1024x1 .f32) (p : Fin 1024)
    (r : Fin 8192) (hr : r.val = 1024 * (n / 8) + p.val) :
    step m c n prev (ix2 p 0) = prev (ix2 p 0) + blockSum m c r (n % 8) := by
  obtain ⟨-, -, -, -, -, -, g0, g1⟩ := idx_facts ⟨n, hn⟩
  have g0' : (grid0.coords ⟨n, hn⟩ 0).val = n / 8 := g0
  have g1' : (grid0.coords ⟨n, hn⟩ 1).val = n % 8 := g1
  unfold step
  rw [dif_pos hn]
  refine (pay2_apply (grid0.coords ⟨n, hn⟩) (xblk m c ⟨n, hn⟩) (yblk m c ⟨n, hn⟩) prev p).trans ?_
  refine congrArg (fun z => prev (ix2 p 0) + z) ?_
  unfold blockSum
  refine Finset.sum_congr rfl fun q _ => ?_
  have hq : 1024 * (n % 8) + q.val < 8192 := by have := q.isLt; omega
  have hc : (1024 * (n / 8) + p.val = 1024 * (n % 8) + q.val) ↔ r = ⟨1024 * (n % 8) + q.val, hq⟩ := by
    rw [Fin.ext_iff]; show _ ↔ r.val = _; rw [hr]
  rw [g0', g1']
  unfold T
  rw [dif_pos hq]
  unfold Cert.Spec.term Cert.Spec.sim
  refine if_congr hc rfl ?_
  refine congrArg (fun z => Ideal.exp (z * Ideal.ofBits .f32 0x40000000#32)) ?_
  refine Finset.sum_congr rfl fun k _ => ?_
  rw [xblk_apply m c ⟨n, hn⟩ p k r hr, yblk_apply m c ⟨n, hn⟩ q k ⟨_, hq⟩ rfl]

/-- At the first point of a row of the grid the column is cleared before the update. -/
private theorem accN_reset (c : Dev nD) (n : Nat) (h : n % 8 = 0) :
    accN m c n = step m c n (k0_pay1 (F := Ideal)) := by
  cases n with
  | zero => rfl
  | succ n =>
    show step m c (n + 1) (if (n + 1) % 8 = 0 then _ else _) = _
    rw [if_pos h]

/-- At every other point the update is applied to what the point before left. -/
private theorem accN_succ (c : Dev nD) (n : Nat) (h : ¬(n + 1) % 8 = 0) :
    accN m c (n + 1) = step m c (n + 1) (accN m c n) := by
  show step m c (n + 1) (if (n + 1) % 8 = 0 then _ else _) = _
  rw [if_neg h]

/-- The scratch column after point n = 8 i + j, at row p: row 1024 i + p's masked terms summed over the
    column blocks 0 … j. -/
private theorem accN_apply (c : Dev nD) : ∀ (n : Nat) (hn : n < cfg0.N) (p : Fin 1024) (r : Fin 8192),
    r.val = 1024 * (n / 8) + p.val →
    accN m c n (ix2 p 0) = ∑ s ∈ Finset.range (n % 8 + 1), blockSum m c r s
  | 0, hn, p, r, hr => by
    rw [accN_reset m c 0 rfl, step_apply m c 0 hn _ p r hr, pay1_apply, zero_add]
    exact (Finset.sum_range_one _).symm
  | n + 1, hn, p, r, hr => by
    by_cases h : (n + 1) % 8 = 0
    · rw [accN_reset m c (n + 1) h, step_apply m c (n + 1) hn _ p r hr, pay1_apply, zero_add, h]
      exact (Finset.sum_range_one _).symm
    · have hr' : r.val = 1024 * (n / 8) + p.val := by rw [hr]; omega
      have e : (n + 1) % 8 = n % 8 + 1 := by omega
      rw [accN_succ m c n h, step_apply m c (n + 1) hn _ p r hr, accN_apply c n (by omega) p r hr', e,
        Finset.sum_range_succ _ (n % 8 + 1)]

/-- The 8192 stacked rows as eight blocks of 1024. -/
private def blockEquiv : Fin 8 × Fin 1024 ≃ Fin 8192 where
  toFun x := ⟨1024 * x.1.val + x.2.val, by have := x.1.isLt; have := x.2.isLt; omega⟩
  invFun c := (⟨c.val / 1024, by have := c.isLt; omega⟩, ⟨c.val % 1024, Nat.mod_lt _ (by decide)⟩)
  left_inv x := by
    have := x.1.isLt; have := x.2.isLt
    refine Prod.ext (Fin.ext ?_) (Fin.ext ?_)
    · show (1024 * x.1.val + x.2.val) / 1024 = x.1.val; omega
    · show (1024 * x.1.val + x.2.val) % 1024 = x.2.val; omega
  right_inv c := by
    apply Fin.ext
    show 1024 * (c.val / 1024) + c.val % 1024 = c.val; omega

/-- The eight block sums together are the row's denominator. -/
private theorem sum_blocks (c : Dev nD) (r : Fin 8192) :
    ∑ s ∈ Finset.range 8, blockSum m c r s = Cert.Spec.den (R m c) r := by
  unfold Cert.Spec.den blockSum
  rw [Finset.sum_range, ← Fintype.sum_prod_type']
  refine Fintype.sum_equiv blockEquiv _ _ fun x => ?_
  unfold T
  exact dif_pos (show 1024 * x.1.val + x.2.val < 8192 from (blockEquiv x).isLt)

/-- The result array the region leaves: each row's denominator. -/
private abbrev G (c : Dev nD) : Vec Ideal S8192x1 .f32 := fun i => Cert.Spec.den (R m c) (i 0)

/-- What a point that writes back writes: its block of the denominators (rows 1024 i … 1024 i + 1023 at the
    last point 8 i + 7 of row i of the grid, where the column holds all eight block sums). -/
private theorem flushed_eq (c : Dev nD) (t : Fin cfg0.N) (hf : (cfg0.win 2).flush t = true) :
    (dats m 0 c).flushed 2 t = ((cfg0.win 2).blk t).view.read (Elt Ideal) (G m c) := by
  have hN : cfg0.N = 64 := N_0
  have h7 : t.val % 8 = 7 := (flush0_2 t).mp hf
  obtain ⟨-, -, -, -, e0, e1, -⟩ := idx_facts t
  show (cfg0.win 2).cut (grid0.coords t) ((dats m 0 c).after 2 t) = _
  dsimp only [dats]
  funext y
  obtain ⟨p, q, rfl⟩ : ∃ (p : Fin 1024) (q : Fin 1), y = ix2 p q := ⟨y 0, y 1, eq_ix2 (n0 := 1024) (n1 := 1) y⟩
  obtain rfl : q = 0 := Subsingleton.elim _ _
  rw [View.read_apply]
  have hrow : 1024 * (t.val / 8) + p.val < 8192 := by have := t.isLt; have := p.isLt; omega
  show accN m c t.val (ix2 p 0) = _
  rw [accN_apply m c t.val t.isLt p ⟨1024 * (t.val / 8) + p.val, hrow⟩ rfl, h7, sum_blocks]
  show Cert.Spec.den (R m c) _ = Cert.Spec.den (R m c) _
  refine congrArg (Cert.Spec.den (R m c)) (Fin.ext ?_)
  show 1024 * (t.val / 8) + p.val = win0_2.index t 0 * 1024 + 1 * p.val
  rw [e0]; omega

/-- An index of the result array is in point t's block iff each coordinate is in the block's range. -/
private theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v24).slice (win0_2.rect t)).set ↔ _
  rw [View.set_slice_whole, Rect.mem_set_unit]
  exact Iff.rfl

/-- Every row of the result is in the block some point writes back: row r in the block of point 8 (r / 1024) + 7. -/
private theorem cover (i : S8192x1.Idx) :
    ∃ t : Fin cfg0.N, (cfg0.win 2).flush t = true ∧ i ∈ ((cfg0.win 2).blk t).view.set := by
  have hN : cfg0.N = 64 := N_0
  have hi0 : (i 0).val < 8192 := (i 0).isLt
  have hi1 : (i 1).val < 1 := (i 1).isLt
  let t : Fin cfg0.N := ⟨8 * ((i 0).val / 1024) + 7, by rw [hN]; omega⟩
  have ht : t.val = 8 * ((i 0).val / 1024) + 7 := rfl
  obtain ⟨-, -, -, -, e0, e1, -⟩ := idx_facts t
  refine ⟨t, (flush0_2 t).mpr (by rw [ht]; omega), ?_⟩
  rw [mem_blk]
  intro a
  match a with
  | ⟨0, _⟩ => show win0_2.index t 0 * 1024 ≤ (i 0).val ∧ (i 0).val < win0_2.index t 0 * 1024 + 1024; rw [e0, ht]; omega
  | ⟨1, _⟩ => show win0_2.index t 1 * 1 ≤ (i 1).val ∧ (i 1).val < win0_2.index t 1 * 1 + 1; rw [e1]; omega

/-- The result array after the region holds every row's denominator. -/
private theorem final (c : Dev nD) : (dats m 0 c).arrAt 2 cfg0.N = G m c :=
  (dats m 0 c).arrAt_eq_of_cover 2 (G m c) (fun t hf => flushed_eq m c t hf) cover

/-- The result array after the region, entry by entry: row r's denominator. -/
theorem den_eq (c : Dev nD) (r : Fin 8192) :
    ((dats (F := Ideal) m 0 c).arrAt 2 cfg0.N : Vec Ideal S8192x1 .f32) (ix2 r 0) = Cert.Spec.den (R m c) r :=
  congrFun (final m c) (ix2 r 0)

end Cert.KernelIdeal.DenomValue

end
-- ==== Proof.KIV.Result.lean ====
/- The kernel program's result at the ideal instance: the loss of the two normalised row
   families.  The host operations before the region normalise the rows, stack them, and form the
   positive terms; the region forms the denominators; the host operations after it take the mean of
   −log(exp(pos / ½) / den). -/
import proofs.«159083_j35948876267977_1_alg».proof.Proof.KI.Launch
import proofs.«159083_j35948876267977_1_alg».proof.Proof.KIV.Den
import Idealize.ShloMosaic.Lib.StableHlo.Run
import Idealize.ShloMosaic.Lib.IdealHost

set_option maxRecDepth 16384

noncomputable section

namespace Cert.KernelIdeal.DenomValue

open Cert.KernelIdeal Cert.KernelIdeal.Gen Cert.KernelIdeal.Denom
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The first argument's rows, normalised (the host operations' tenth result), entry by entry; -/
abbrev A (c : Dev nD) : Fin 4096 → Fin 256 → EReal :=
  fun p k => (V (F := Ideal) m c main_v7 : Vec Ideal S4096x256 .f32) (ix2 p k)
/-- the second argument's. -/
abbrev B (c : Dev nD) : Fin 4096 → Fin 256 → EReal :=
  fun p k => (V (F := Ideal) m c main_v15 : Vec Ideal S4096x256 .f32) (ix2 p k)

/-! ## The host's arithmetic at an entry

Stated over any two arrays of 4096 × 256 entries and any column of 8192 denominators. -/

/-- The positive terms as the host forms them: the row sums of the entrywise products. -/
private def posv (x y : FVec Ideal S4096x256 .f32) : FVec Ideal S4096 .f32 :=
  Host.reduceAdd (F := Ideal) (φ := .f32) (mulf (F := Ideal) (φ := .f32) x y) (constant (F := Ideal) S_ .f32 0x00000000#32) reducesTo_S4096x256_S4096_d1 h_S_

private theorem posv_apply (x y : FVec Ideal S4096x256 .f32) (p : Fin 4096) :
    posv x y (ix1 p) = Cert.Spec.pos (fun p k => x (ix2 p k)) (fun p k => y (ix2 p k)) p := by
  unfold posv
  generalize hz : mulf (F := Ideal) (φ := .f32) x y = z
  simp only [Host.reduceAdd, Ideal.hostReduceAdd_def]
  rw [Ideal.hostReduceAdd_single reducesTo_S4096x256_S4096_d1 (by decide)]
  subst hz
  rw [constant_apply, Ideal.ofBits_zero_f32, zero_add]
  unfold Cert.Spec.pos
  refine Finset.sum_congr rfl fun k _ => ?_
  rw [mulf_apply]
  have e : (Shape.Reduces.lift (by decide : S4096x256.Reduces [1] S4096) (ix1 p) k) = ix2 p k :=
    funext fun a => Fin.ext (by match a with | ⟨0, _⟩ => rfl | ⟨1, _⟩ => rfl)
  rw [e]
  rfl

/-- A row sum stacked on itself, read at a stacked row, is the row sum at the row's pair. -/
private theorem dup_apply (s : FVec Ideal S4096 .f32) (r : Fin 8192) :
    (concatenate S8192 0 [⟨S4096, s⟩, ⟨S4096, s⟩] concatenates_S4096_S4096_S8192_d0) (ix1 r) = s (ix1 (Cert.Spec.pairOf r)) := by
  by_cases h : r.val < 4096
  · have e : Cert.Spec.pairOf r = ⟨r.val, h⟩ := Fin.ext (Nat.mod_eq_of_lt h)
    rw [e]
    exact concatenate_pair_apply_left 0 s s _ (ix1 r) rfl (ix1 ⟨r.val, h⟩) (fun b => match b with | ⟨0, _⟩ => rfl)
  · have h' : r.val - 4096 < 4096 := by have := r.isLt; omega
    have e : Cert.Spec.pairOf r = ⟨r.val - 4096, h'⟩ :=
      Fin.ext (by show r.val % 4096 = r.val - 4096; have := r.isLt; omega)
    rw [e]
    exact concatenate_pair_apply_right 0 s s _ (ix1 r) rfl rfl (ix1 ⟨r.val - 4096, h'⟩)
      (fun b hb => by
        obtain ⟨n, hn⟩ := b
        have h0 : n = 0 := by have h1 : n < 1 := hn; omega
        subst h0
        exact (hb rfl).elim)
      (by show (r.val - 4096) + 4096 = r.val; omega)

private theorem total_apply (f : FVec Ideal S8192 .f32) (i : S_.Idx) :
    (Host.reduceAdd (F := Ideal) (φ := .f32) f (constant (F := Ideal) S_ .f32 0x00000000#32) reducesTo_S8192_S_d0 h_S_ : FVec Ideal S_ .f32) i
      = Ideal.ofBits .f32 0x00000000#32 + ∑ r : Fin 8192, f (ix1 r) := by
  simp only [Host.reduceAdd, Ideal.hostReduceAdd_def]
  rw [Ideal.hostReduceAdd_total reducesTo_S8192_S_d0 (fun b => b.elim0) f _ i]
  refine congrArg (_ + ·) ?_
  exact Fintype.sum_equiv ⟨fun j => j 0, fun r => ix1 r, fun j => (eq_ix1 j).symm, fun r => rfl⟩ _ _
    (fun j => congrArg f (eq_ix1 j))

/-- The numerators as the host forms them: exp of the stacked positive terms over one half. -/
private def numv (x y : FVec Ideal S4096x256 .f32) : FVec Ideal S8192 .f32 :=
  Host.exp (F := Ideal) (φ := .f32) (Host.divf (F := Ideal) (φ := .f32)
    (concatenate S8192 0 [⟨S4096, posv x y⟩, ⟨S4096, posv x y⟩] concatenates_S4096_S4096_S8192_d0)
    (broadcastInDim S8192 ![] bcast_S_S8192 (constant (F := Ideal) S_ .f32 0x3F000000#32)))

private theorem numv_apply (x y : FVec Ideal S4096x256 .f32) (r : Fin 8192) :
    numv x y (ix1 r) = Ideal.exp (Ideal.div
      (Cert.Spec.pos (fun p k => x (ix2 p k)) (fun p k => y (ix2 p k)) (Cert.Spec.pairOf r))
      (Ideal.ofBits .f32 0x3F000000#32)) := by
  show Ideal.exp (Ideal.div
      (concatenate S8192 0 [⟨S4096, posv x y⟩, ⟨S4096, posv x y⟩] concatenates_S4096_S4096_S8192_d0 (ix1 r))
      (broadcastInDim S8192 ![] bcast_S_S8192 (constant (F := Ideal) S_ .f32 0x3F000000#32) (ix1 r))) = _
  rw [dup_apply, posv_apply, broadcastInDim_scalar_apply, constant_apply]

/-- The loss as the host forms it from the numerators and the region's result. -/
private def lossv (n : FVec Ideal S8192 .f32) (D : FVec Ideal S8192x1 .f32) : FVec Ideal S_ .f32 :=
  Host.divf (F := Ideal) (φ := .f32)
    (Host.reduceAdd (F := Ideal) (φ := .f32)
      (Host.negf (F := Ideal) (φ := .f32) (Host.log (F := Ideal) (φ := .f32) (Host.divf (F := Ideal) (φ := .f32) n
        (shapeCast S8192 D shapeCasts_S8192x1_S8192))))
      (constant (F := Ideal) S_ .f32 0x00000000#32) reducesTo_S8192_S_d0 h_S_)
    (constant (F := Ideal) S_ .f32 0x46000000#32)

private theorem lossv_apply (n : FVec Ideal S8192 .f32) (D : FVec Ideal S8192x1 .f32) (i : S_.Idx) :
    lossv n D i = Ideal.div
      (Ideal.ofBits .f32 0x00000000#32 + ∑ r : Fin 8192, -(Ideal.log (Ideal.div (n (ix1 r)) (D (ix2 r 0)))))
      (Ideal.ofBits .f32 0x46000000#32) := by
  unfold lossv
  rw [hostDivf_apply, total_apply, constant_apply]
  refine congrArg (fun t => Ideal.div (_ + t) _) (Finset.sum_congr rfl fun r _ => ?_)
  show -(Ideal.log (Ideal.div (n (ix1 r)) (shapeCast S8192 D shapeCasts_S8192x1_S8192 (ix1 r)))) = _
  rw [shapeCast_apply D shapeCasts_S8192x1_S8192 (ix1 r) (ix2 r 0) (by
    rw [Shape.rowMajor_val_two, Shape.rowMajor_val_one]; show r.val * 1 + 0 = r.val; omega)]

/-- The stacked rows, rounded, read at an entry: the first family's row below 4096, the second's from there on. -/
private theorem stack_apply (x y : FVec Ideal S4096x256 .f32) (r : Fin 8192) (k : Fin 256) :
    (truncf (F := Ideal) .bf16 (concatenate S8192x256 0 [⟨S4096x256, x⟩, ⟨S4096x256, y⟩] concatenates_S4096x256_S4096x256_S8192x256_d0 : FVec Ideal S8192x256 .f32) bitsLt_bf16_f32 : FVec Ideal S8192x256 .bf16) (ix2 r k)
      = Cert.Spec.rows (fun p k => x (ix2 p k)) (fun p k => y (ix2 p k)) r k := by
  rw [truncf_apply]
  unfold Cert.Spec.rows
  by_cases h : r.val < 4096
  · rw [dif_pos h]
    exact concatenate_pair_apply_left 0 x y _ (ix2 r k) rfl (ix2 ⟨r.val, h⟩ k)
      (fun b => match b with | ⟨0, _⟩ => rfl | ⟨1, _⟩ => rfl)
  · rw [dif_neg h]
    have h' : r.val - 4096 < 4096 := by have := r.isLt; omega
    exact concatenate_pair_apply_right 0 x y _ (ix2 r k) rfl rfl (ix2 ⟨r.val - 4096, h'⟩ k)
      (fun b hb => by
        obtain ⟨n, hn⟩ := b
        have h2 : n < 2 := hn
        have h1 : n = 0 ∨ n = 1 := by omega
        rcases h1 with h1 | h1
        · subst h1; exact (hb rfl).elim
        · subst h1; rfl)
      (by show (r.val - 4096) + 4096 = r.val; omega)

/-- The host's last stretch over numerators and denominators that are the specification's: the loss. -/
private theorem lossv_eq (x y : FVec Ideal S4096x256 .f32) (D : FVec Ideal S8192x1 .f32)
    (hD : ∀ r : Fin 8192, D (ix2 r 0)
      = Cert.Spec.den (Cert.Spec.rows (fun p k => x (ix2 p k)) (fun p k => y (ix2 p k))) r) :
    lossv (numv x y) D = fun _ => Cert.Spec.loss (fun p k => x (ix2 p k)) (fun p k => y (ix2 p k)) := by
  funext i
  rw [lossv_apply]
  unfold Cert.Spec.loss
  refine congrArg (fun t => Ideal.div (_ + t) _) (Finset.sum_congr rfl fun r _ => ?_)
  rw [numv_apply, hD]
  rfl

/-! ## The host operations read off the program

The thirty host operations before the region are cut after the twentieth: the first twenty normalise
the two arguments' rows (their results, the tenth and the twentieth, stay as they are), the last ten
stack the rows and form the numerators. -/

private theorem V0_cut (c : Dev nD) :
    V0 (F := Ideal) m c = StableHlo.after (hostOps0.drop 20) (StableHlo.after (hostOps0.take 20) (V₀ m c)) := by
  show StableHlo.after hostOps0 _ = _
  rw [← StableHlo.after_append, List.take_append_drop]

private theorem tail_v7 (W : Valuation τ sig (Elt Ideal)) :
    StableHlo.after (hostOps0.drop 20) W (Proc.devRef .tc main_v7) = W (Proc.devRef .tc main_v7) := by
  simp only [hostOps0, List.drop_succ_cons, List.drop_zero]
  after_results

private theorem tail_v15 (W : Valuation τ sig (Elt Ideal)) :
    StableHlo.after (hostOps0.drop 20) W (Proc.devRef .tc main_v15) = W (Proc.devRef .tc main_v15) := by
  simp only [hostOps0, List.drop_succ_cons, List.drop_zero]
  after_results

private theorem tail_v17 (W : Valuation τ sig (Elt Ideal)) :
    (StableHlo.after (hostOps0.drop 20) W (Proc.devRef .tc main_v17) : FVec Ideal S8192x256 .bf16) =
      truncf (F := Ideal) .bf16 (concatenate S8192x256 0
        [⟨S4096x256, (W (Proc.devRef .tc main_v7) : FVec Ideal S4096x256 .f32)⟩,
         ⟨S4096x256, (W (Proc.devRef .tc main_v15) : FVec Ideal S4096x256 .f32)⟩]
        concatenates_S4096x256_S4096x256_S8192x256_d0 : FVec Ideal S8192x256 .f32) bitsLt_bf16_f32 := by
  simp only [hostOps0, List.drop_succ_cons, List.drop_zero]
  after_results

private theorem tail_v23 (W : Valuation τ sig (Elt Ideal)) :
    (StableHlo.after (hostOps0.drop 20) W (Proc.devRef .tc main_v23) : FVec Ideal S8192 .f32) =
      numv (W (Proc.devRef .tc main_v7)) (W (Proc.devRef .tc main_v15)) := by
  simp only [hostOps0, List.drop_succ_cons, List.drop_zero]
  after_results
  rfl

private theorem fin_v30 (U : Valuation τ sig (Elt Ideal)) :
    (StableHlo.after hostOps1 U (Proc.devRef .tc main_v30) : FVec Ideal S_ .f32) =
      lossv (U (Proc.devRef .tc main_v23)) (U (Proc.devRef .tc main_v24)) := by
  after_results
  rfl

/-- The stacked rows the region reads, from the two normalised families. -/
private theorem v17_eq (c : Dev nD) :
    (V (F := Ideal) m c main_v17 : FVec Ideal S8192x256 .bf16) =
      truncf (F := Ideal) .bf16 (concatenate S8192x256 0
        [⟨S4096x256, (V (F := Ideal) m c main_v7 : FVec Ideal S4096x256 .f32)⟩,
         ⟨S4096x256, (V (F := Ideal) m c main_v15 : FVec Ideal S4096x256 .f32)⟩]
        concatenates_S4096x256_S4096x256_S8192x256_d0 : FVec Ideal S8192x256 .f32) bitsLt_bf16_f32 := by
  show (V0 (F := Ideal) m c (Proc.devRef .tc main_v17) : FVec Ideal S8192x256 .bf16) =
      truncf (F := Ideal) .bf16 (concatenate S8192x256 0
        [⟨S4096x256, (V0 (F := Ideal) m c (Proc.devRef .tc main_v7) : FVec Ideal S4096x256 .f32)⟩,
         ⟨S4096x256, (V0 (F := Ideal) m c (Proc.devRef .tc main_v15) : FVec Ideal S4096x256 .f32)⟩]
        concatenates_S4096x256_S4096x256_S8192x256_d0 : FVec Ideal S8192x256 .f32) bitsLt_bf16_f32
  rw [V0_cut]
  generalize StableHlo.after (hostOps0.take 20) (V₀ m c) = W
  rw [tail_v17, tail_v7, tail_v15]

/-- The numerators, from the two normalised families. -/
private theorem v23_eq (c : Dev nD) :
    (V (F := Ideal) m c main_v23 : FVec Ideal S8192 .f32) = numv (V (F := Ideal) m c main_v7) (V (F := Ideal) m c main_v15) := by
  show (V0 (F := Ideal) m c (Proc.devRef .tc main_v23) : FVec Ideal S8192 .f32) =
      numv (V0 (F := Ideal) m c (Proc.devRef .tc main_v7)) (V0 (F := Ideal) m c (Proc.devRef .tc main_v15))
  rw [V0_cut]
  generalize StableHlo.after (hostOps0.take 20) (V₀ m c) = W
  rw [tail_v23, tail_v7, tail_v15]

/-- The stacked rows the region reads are the two normalised families, one after the other. -/
theorem reps_eq (c : Dev nD) : R m c = Cert.Spec.rows (A m c) (B m c) := by
  funext r k
  show (V (F := Ideal) m c main_v17 : FVec Ideal S8192x256 .bf16) (ix2 r k) = _
  rw [v17_eq]
  exact stack_apply _ _ r k

/-- The program's result buffer, from the numerators and the region's result. -/
private theorem wfin_eq (c : Dev nD) :
    (Wfin (F := Ideal) m c (Proc.devRef .tc main_v30) : FVec Ideal S_ .f32) =
      lossv (numv (V (F := Ideal) m c main_v7) (V (F := Ideal) m c main_v15)) ((dats (F := Ideal) m 0 c).arrAt 2 cfg0.N) := by
  unfold Wfin
  rw [fin_v30, Vmid_v24, Vmid_of_ne m c (by decide : main_v23 ≠ main_v24), v23_eq]

/-- The program's result: the loss. -/
theorem result_eq (c : Dev nD) :
    (Wfin (F := Ideal) m c (Proc.devRef .tc main_v30) : Vec Ideal S_ .f32) = fun _ => Cert.Spec.loss (A m c) (B m c) := by
  refine (wfin_eq m c).trans ?_
  exact lossv_eq _ _ _ (fun r => by rw [den_eq, reps_eq])

end Cert.KernelIdeal.DenomValue

end
-- ==== Proof.KI.Frame.lean ====
/- What the launch says of the program's arguments and of its result buffer: no host
   operation writes an argument and the kernel's result array is not one, so both arguments end as
   launched; the result buffer ends at the value the host operations compute. -/
import proofs.«159083_j35948876267977_1_alg».proof.Proof.KI.Launch

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No host operation before the region writes a buffer other than its own result. -/
theorem not_written0 (b : Ref sig .tc) (hb : b = main_arg0 ∨ b = main_arg1) :
    ∀ op ∈ (hostOps0 (F := F)), Proc.devRef .tc b ∉ op.writes := by
  intro op hop
  simp only [List.mem_cons, List.mem_nil_iff, or_false] at hop
  rcases hb with rfl | rfl <;>
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- Nor does one after it. -/
theorem not_written1 (b : Ref sig .tc) (hb : b = main_arg0 ∨ b = main_arg1) :
    ∀ op ∈ (hostOps1 (F := F)), Proc.devRef .tc b ∉ op.writes := by
  intro op hop
  simp only [List.mem_cons, List.mem_nil_iff, or_false] at hop
  rcases hb with rfl | rfl <;>
  rcases hop with rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- An argument ends as launched. -/
theorem Wfin_arg (c : Dev nD) (b : Ref sig .tc) (hb : b = main_arg0 ∨ b = main_arg1) :
    Wfin m c (Proc.devRef .tc b) = m ((c.tc : Thread nD τ).loc b) := by
  have hne : (Proc.devRef .tc b : DevRef τ sig) ≠ Proc.devRef .tc main_v24 := by
    rcases hb with rfl | rfl <;> exact StableHlo.devRef_ne_of_ne (by decide)
  unfold Wfin
  rw [StableHlo.after_of_forall_not_mem (b := Proc.devRef .tc b) hostOps1 (Vmid m c) (not_written1 b hb)]
  unfold Vmid
  rw [Function.update_of_ne hne]
  exact StableHlo.after_of_forall_not_mem (b := Proc.devRef .tc b) hostOps0 (V₀ m c) (not_written0 b hb)

/-- The frame: every weakly fair execution terminates, nothing faulting, the arguments unchanged. -/
theorem frame (g : Dev nD → PrngReg) :
    θ_run defs (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_arg0 rfl).trans (Wfin_arg m c main_arg0 (.inl rfl)),
     (h c main_arg1 rfl).trans (Wfin_arg m c main_arg1 (.inr rfl))⟩) (run_main m g)

/-- The same run, with the result buffer at the value the host operations compute. -/
theorem run_result (g : Dev nD → PrngReg) :
    θ_run defs (onTc (τ := τ) (main (F := F))) ⟨m, fun _ => 0, g⟩ (fun r => ∀ c : Dev nD,
      r.2.mem ((c.tc : Thread nD τ).loc main_v30) = Wfin m c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c main_v30 rfl,
     (h c main_arg0 rfl).trans (Wfin_arg m c main_arg0 (.inl rfl)),
     (h c main_arg1 rfl).trans (Wfin_arg m c main_arg1 (.inr rfl))⟩) (run_main m g)

end Cert.KernelIdeal.Denom

end
-- ==== Proof.Ref.Sim.lean ====
/- The reference's stacked rows and similarity matrix at the ideal instance, entry by entry: the
   stacked array holds the first argument's normalised rows, then the second's; the matrix product
   with its transpose holds every pair's inner product. -/
import proofs.«159083_j35948876267977_1_alg».proof.Proof.RefStages
import proofs.«159083_j35948876267977_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.SL.Sem

variable (x0 x1 : (⟨S4096x256, .f32⟩ : BufTy).Contents (Elt Ideal))

/-- The first argument's rows, normalised (the reference's tenth result), entry by entry; -/
abbrev A : Fin 4096 → Fin 256 → EReal := fun p k => val_main_v7 (F := Ideal) x0 (ix2 p k)
/-- the second argument's. -/
abbrev B : Fin 4096 → Fin 256 → EReal := fun p k => val_main_v15 (F := Ideal) x1 (ix2 p k)

/-- Two arrays of 4096 rows stacked along the row axis, read at row r: rows below 4096 come from the
    first array at the same place, the others from the second, 4096 rows up. -/
private theorem stack_apply {α : Type} (y₁ y₂ : S4096x256.Idx → α) (r : Fin 8192) (k : Fin 256) :
    concatenate S8192x256 0 [⟨S4096x256, y₁⟩, ⟨S4096x256, y₂⟩]
        concatenates_S4096x256_S4096x256_S8192x256_d0 (ix2 r k) =
      if h : r.val < 4096 then y₁ (ix2 ⟨r.val, h⟩ k)
      else y₂ (ix2 ⟨r.val - 4096, by have := r.isLt; omega⟩ k) := by
  by_cases h : r.val < 4096
  · rw [dif_pos h]
    exact concatenate_pair_apply_left 0 y₁ y₂ concatenates_S4096x256_S4096x256_S8192x256_d0 _ rfl _
      (fun b => by
        match b with
        | ⟨0, _⟩ => rfl
        | ⟨1, _⟩ => rfl)
  · rw [dif_neg h]
    exact concatenate_pair_apply_right 0 y₁ y₂ concatenates_S4096x256_S4096x256_S8192x256_d0 _ rfl rfl _
      (fun b hb => by
        match b with
        | ⟨0, _⟩ => exact absurd rfl hb
        | ⟨1, _⟩ => rfl)
      (by show r.val - 4096 + 4096 = r.val; omega)

/-- The stacked array: the two normalised families, one after the other. -/
theorem rows_eq (r : Fin 8192) (k : Fin 256) :
    val_main_v16 (F := Ideal) x0 x1 (ix2 r k) = Cert.Spec.rows (A x0) (B x1) r k := by
  unfold val_main_v16 Cert.Spec.rows
  exact stack_apply _ _ r k

/-- The similarity matrix: entry (r, c) is the inner product of stacked rows r and c. -/
theorem sim_eq (r c : Fin 8192) :
    val_main_v18 (F := Ideal) x0 x1 (ix2 r c) = Cert.Spec.sim (Cert.Spec.rows (A x0) (B x1)) r c := by
  rw [val_main_v18_apply]
  unfold Cert.Spec.sim
  refine Finset.sum_congr rfl fun k _ => ?_
  -- the left factor sits at (r, k); the right factor, through the transpose, at (c, k)
  have el : lidx_main_v18 (ix2 r c) k = ix2 r k :=
    funext fun a => Fin.ext (by match a with | ⟨0, _⟩ => rfl | ⟨1, _⟩ => rfl)
  have er : idx_main_v17 (ridx_main_v18 (ix2 r c) k) = ix2 c k :=
    funext fun a => Fin.ext (by match a with | ⟨0, _⟩ => rfl | ⟨1, _⟩ => rfl)
  rw [val_main_v17_apply, el, er, rows_eq, rows_eq]

end Cert.ReferenceIdeal.RefValue

end
-- ==== Proof.Ref.Pos.lean ====
/- The reference's positive terms at the ideal instance: the two gathers read the similarity
   matrix at (p, p + 4096) and at (p + 4096, p), and both entries are pair p's inner product. -/
import proofs.«159083_j35948876267977_1_alg».proof.Proof.Ref.Sim
import proofs.«159083_j35948876267977_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.SL.Sem

variable (x0 x1 : (⟨S4096x256, .f32⟩ : BufTy).Contents (Elt Ideal))

/-! ### A gather of matrix entries at a two-column table of positions, read at one result position

The gather's two operand axes are both collapsed and both start-indexed, the index vector lies along the table's
second axis and every slice is one entry: result position p is the matrix entry whose row is the word at (p, 0) of
the table and whose column is the word at (p, 1), each read as a signed integer and clamped into the matrix. -/

/-- The table position that result position p reads component q of its start index from: (p, q). -/
private theorem siIdx_pair {M N n : Nat} (d : GatherDims ⟨2, ![M, N]⟩ ⟨2, ![n, 2]⟩ ⟨1, ![n]⟩)
    (hivd : d.indexVectorDim = 1) (p : Fin n) (c : Fin d.startIndexMap.length) (q : Fin 2) (hq : c.val = q.val) :
    d.siIdx (ix1 p) c = ix2 p q := by
  funext b
  match b with
  | ⟨0, _⟩ =>
    unfold GatherDims.siIdx
    rw [dif_neg (by rw [hivd]; simp)]
    unfold GatherDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    unfold GatherDims.siIdx
    rw [dif_pos (by rw [hivd])]
    apply Fin.ext
    exact hq

/-- The gather at result position p is the matrix at (r, c), once the clamped words of row p of the table are
    known to be r and c. -/
private theorem gather_point {α : Type} {M N n w : Nat} (d : GatherDims ⟨2, ![M, N]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![M, N]⟩ : Shape).Idx → α) (idx : IVec ⟨2, ![n, 2]⟩ w) (p : Fin n) (r : Fin M) (c : Fin N)
    (hr : min (idx (ix2 p 0)).toInt.toNat (M - 1) = r.val) (hc : min (idx (ix2 p 1)).toInt.toNat (N - 1) = c.val) :
    Host.gather d x idx (ix1 p) = x (ix2 r c) := by
  unfold Host.gather
  congr 1
  funext a
  apply Fin.ext
  have hb : ∀ a : Fin 2, a ∉ d.operandBatchingDims := by intro a; rw [hob]; exact List.not_mem_nil
  have hk : ∀ a : Fin 2, a ∉ d.sKept := by
    intro a; rw [GatherDims.mem_sKept, hcoll]
    match a with
    | ⟨0, _⟩ => simp
    | ⟨1, _⟩ => simp
  match a with
  | ⟨0, _⟩ =>
    have hm : (0 : Fin 2) ∈ d.startIndexMap := by rw [hsim]; simp
    have hsl : d.sliceSizes 0 = 1 := d.slice_collapsed 0 (by rw [hcoll]; simp)
    have hi : d.siIdx (ix1 p) ⟨List.idxOf (0 : Fin 2) d.startIndexMap, List.idxOf_lt_length_iff.2 hm⟩ = ix2 p 0 :=
      siIdx_pair d hivd p _ 0 (by show List.idxOf (0 : Fin 2) d.startIndexMap = 0; rw [hsim]; simp)
    show d.start (ix1 p) idx 0 + d.batchCoord (ix1 p) 0 + d.offCoord (ix1 p) 0 = _
    rw [GatherDims.batchCoord_eq_zero _ _ _ (hb _), GatherDims.offCoord_eq_zero _ _ _ (hk _)]
    simp only [Nat.add_zero]
    unfold GatherDims.start
    rw [dif_pos hm, hi, hsl]
    exact hr
  | ⟨1, _⟩ =>
    have hm : (1 : Fin 2) ∈ d.startIndexMap := by rw [hsim]; simp
    have hsl : d.sliceSizes 1 = 1 := d.slice_collapsed 1 (by rw [hcoll]; simp)
    have hi : d.siIdx (ix1 p) ⟨List.idxOf (1 : Fin 2) d.startIndexMap, List.idxOf_lt_length_iff.2 hm⟩ = ix2 p 1 :=
      siIdx_pair d hivd p _ 1 (by show List.idxOf (1 : Fin 2) d.startIndexMap = 1; rw [hsim]; simp)
    show d.start (ix1 p) idx 1 + d.batchCoord (ix1 p) 1 + d.offCoord (ix1 p) 1 = _
    rw [GatherDims.batchCoord_eq_zero _ _ _ (hb _), GatherDims.offCoord_eq_zero _ _ _ (hk _)]
    simp only [Nat.add_zero]
    unfold GatherDims.start
    rw [dif_pos hm, hi, hsl]
    exact hc

/-! ### Small non-negative words

A position p < 4096 and p + 4096 are far below 2³¹: as 32-bit words they are not negative, adding 4096 does not
wrap, and read signed they are themselves. So the index normalisation "if i < 0 then i + 8192 else i" leaves them. -/

/-- A word below 2³¹ is not negative. -/
private theorem not_neg_word {a : BitVec 32} (ha : a.toNat < 2 ^ 31) : IntOp.cmpi .slt a 0#32 = 0#1 :=
  eq_zero_of_ne_one fun h => Nat.not_lt_zero _ ((StableHlo.Predicate.slt_iff_toNat ha (by decide)).1 h)

/-- Word addition of two naturals' words is the word of their sum. -/
private theorem add_word (p c : Nat) : IntOp.addi (BitVec.ofNat 32 p) (BitVec.ofNat 32 c) = BitVec.ofNat 32 (p + c) := by
  unfold IntOp.addi; exact (BitVec.ofNat_add _ _).symm

/-- The word of a natural below 2³¹ has that value. -/
private theorem toNat_word (p : Nat) (hp : p < 2 ^ 31) : (BitVec.ofNat 32 p).toNat = p := by
  rw [BitVec.toNat_ofNat]; exact Nat.mod_eq_of_lt (by omega)

/-- The normalisation of the position p itself: p. -/
private theorem col_lo (p : Nat) (hp : p < 4096) :
    Scalar.select (IntOp.cmpi .slt (BitVec.ofNat 32 p) 0#32) (IntOp.addi (BitVec.ofNat 32 p) 8192#32) (BitVec.ofNat 32 p)
      = BitVec.ofNat 32 p := by
  rw [not_neg_word (by rw [toNat_word p (by omega)]; omega), select_zero]

/-- The normalisation of the shifted position p + 4096: p + 4096. -/
private theorem col_hi (p : Nat) (hp : p < 4096) :
    Scalar.select (IntOp.cmpi .slt (IntOp.addi (BitVec.ofNat 32 p) 4096#32) 0#32)
        (IntOp.addi (IntOp.addi (BitVec.ofNat 32 p) 4096#32) 8192#32) (IntOp.addi (BitVec.ofNat 32 p) 4096#32)
      = BitVec.ofNat 32 (p + 4096) := by
  rw [show (4096#32 : BitVec 32) = BitVec.ofNat 32 4096 from rfl, add_word,
    not_neg_word (by rw [toNat_word _ (by omega)]; omega), select_zero]

/-- A word of a position inside the matrix, read signed and clamped into [0, 8191], is the position. -/
private theorem start_word (p : Nat) (hp : p < 8192) : min (BitVec.ofNat 32 p).toInt.toNat (8192 - 1) = p := by
  rw [StableHlo.Predicate.toInt_ofNat_small p (by omega), Int.toNat_natCast]; omega

/-! ### The two tables of positions

The first gather's table has the rows (p, p + 4096), the second's the rows (p + 4096, p). -/

/-- Row p of a 4096 × 1 column of positions: where the 4096 × 2 table reads row p of either of its two columns. -/
private abbrev colIdx (p : Fin 4096) : S4096x1.Idx := ix2 p (0 : Fin 1)

/-- The first table, column 0: p. -/
private theorem tab1_col0 (p : Fin 4096) : val_main_v34 (F := Ideal) (ix2 p (0 : Fin 2)) = BitVec.ofNat 32 p.val := by
  unfold val_main_v34
  refine (concatenate_pair_apply_left (t := S4096x2) (s₁ := S4096x1) (s₂ := S4096x1) (1 : Fin 2) _ _ _
    (ix2 p (0 : Fin 2)) rfl (colIdx p) (fun b => match b with | ⟨0, _⟩ => rfl | ⟨1, _⟩ => rfl)).trans ?_
  rw [val_main_v32_apply, val_main_v26_apply, val_main_v23_apply, val_main_v25_apply, val_main_v19_apply,
    val_main_v22_apply, val_main_c_3_apply, val_main_v24_apply, val_main_c_4_apply]
  exact col_lo p.val p.isLt

/-- The first table, column 1: p + 4096. -/
private theorem tab1_col1 (p : Fin 4096) :
    val_main_v34 (F := Ideal) (ix2 p (1 : Fin 2)) = BitVec.ofNat 32 (p.val + 4096) := by
  unfold val_main_v34
  refine (concatenate_pair_apply_right (t := S4096x2) (s₁ := S4096x1) (s₂ := S4096x1) (1 : Fin 2) _ _ _
    (ix2 p (1 : Fin 2)) rfl rfl (colIdx p)
    (fun b hb => match b with | ⟨0, _⟩ => rfl | ⟨1, _⟩ => absurd rfl hb) rfl).trans ?_
  rw [val_main_v33_apply, val_main_v31_apply, val_main_v28_apply, val_main_v30_apply, val_main_v21_apply,
    val_main_v19_apply, val_main_v20_apply, val_main_c_apply, val_main_v27_apply, val_main_c_5_apply,
    val_main_v29_apply, val_main_c_6_apply]
  exact col_hi p.val p.isLt

/-- The second table, column 0: p + 4096. -/
private theorem tab2_col0 (p : Fin 4096) :
    val_main_v50 (F := Ideal) (ix2 p (0 : Fin 2)) = BitVec.ofNat 32 (p.val + 4096) := by
  unfold val_main_v50
  refine (concatenate_pair_apply_left (t := S4096x2) (s₁ := S4096x1) (s₂ := S4096x1) (1 : Fin 2) _ _ _
    (ix2 p (0 : Fin 2)) rfl (colIdx p) (fun b => match b with | ⟨0, _⟩ => rfl | ⟨1, _⟩ => rfl)).trans ?_
  rw [val_main_v48_apply, val_main_v42_apply, val_main_v39_apply, val_main_v41_apply, val_main_v37_apply,
    val_main_v19_apply, val_main_v36_apply, val_main_c_7_apply, val_main_v38_apply, val_main_c_8_apply,
    val_main_v40_apply, val_main_c_9_apply]
  exact col_hi p.val p.isLt

/-- The second table, column 1: p. -/
private theorem tab2_col1 (p : Fin 4096) : val_main_v50 (F := Ideal) (ix2 p (1 : Fin 2)) = BitVec.ofNat 32 p.val := by
  unfold val_main_v50
  refine (concatenate_pair_apply_right (t := S4096x2) (s₁ := S4096x1) (s₂ := S4096x1) (1 : Fin 2) _ _ _
    (ix2 p (1 : Fin 2)) rfl rfl (colIdx p)
    (fun b hb => match b with | ⟨0, _⟩ => rfl | ⟨1, _⟩ => absurd rfl hb) rfl).trans ?_
  rw [val_main_v49_apply, val_main_v47_apply, val_main_v44_apply, val_main_v46_apply, val_main_v19_apply,
    val_main_v43_apply, val_main_c_10_apply, val_main_v45_apply, val_main_c_11_apply]
  exact col_lo p.val p.isLt

/-! ### The stacked rows at p and at p + 4096 -/

/-- Stacked row p (p < 4096) is A's row p. -/
private theorem rows_lo (A B : Fin 4096 → Fin 256 → EReal) (p : Fin 4096) (h : p.val < 8192) (k : Fin 256) :
    Cert.Spec.rows A B ⟨p.val, h⟩ k = A p k := by
  unfold Cert.Spec.rows
  rw [dif_pos (show (⟨p.val, h⟩ : Fin 8192).val < 4096 from p.isLt)]

/-- Stacked row p + 4096 is B's row p. -/
private theorem rows_hi (A B : Fin 4096 → Fin 256 → EReal) (p : Fin 4096) (h : p.val + 4096 < 8192) (k : Fin 256) :
    Cert.Spec.rows A B ⟨p.val + 4096, h⟩ k = B p k := by
  unfold Cert.Spec.rows
  rw [dif_neg (show ¬(⟨p.val + 4096, h⟩ : Fin 8192).val < 4096 from by simp)]
  exact congrArg (fun q => B q k) (Fin.ext (by show p.val + 4096 - 4096 = p.val; omega))

/-! ### The two gathers -/

/-- The first gather at p: the similarity at (p, p + 4096), pair p's inner product. -/
private theorem first_half (p : Fin 4096) :
    val_main_v35 (F := Ideal) x0 x1 (ix1 p) = Cert.Spec.pos (A x0) (B x1) p := by
  have hlo : p.val < 8192 := by have := p.isLt; omega
  have hhi : p.val + 4096 < 8192 := by have := p.isLt; omega
  unfold val_main_v35
  refine (gather_point _ rfl rfl rfl rfl (val_main_v18 (F := Ideal) x0 x1) (val_main_v34 (F := Ideal)) p
    ⟨p.val, hlo⟩ ⟨p.val + 4096, hhi⟩ ?_ ?_).trans ?_
  · rw [tab1_col0]; exact start_word p.val hlo
  · rw [tab1_col1]; exact start_word (p.val + 4096) hhi
  · rw [sim_eq]
    unfold Cert.Spec.sim Cert.Spec.pos
    refine Finset.sum_congr rfl fun k _ => ?_
    rw [rows_lo, rows_hi]

/-- The second gather at p: the similarity at (p + 4096, p), the same inner product with its factors swapped. -/
private theorem second_half (p : Fin 4096) :
    val_main_v51 (F := Ideal) x0 x1 (ix1 p) = Cert.Spec.pos (A x0) (B x1) p := by
  have hlo : p.val < 8192 := by have := p.isLt; omega
  have hhi : p.val + 4096 < 8192 := by have := p.isLt; omega
  unfold val_main_v51
  refine (gather_point _ rfl rfl rfl rfl (val_main_v18 (F := Ideal) x0 x1) (val_main_v50 (F := Ideal)) p
    ⟨p.val + 4096, hhi⟩ ⟨p.val, hlo⟩ ?_ ?_).trans ?_
  · rw [tab2_col0]; exact start_word (p.val + 4096) hhi
  · rw [tab2_col1]; exact start_word p.val hlo
  · rw [sim_eq]
    unfold Cert.Spec.sim Cert.Spec.pos
    refine Finset.sum_congr rfl fun k _ => ?_
    rw [rows_lo, rows_hi]
    exact mul_comm _ _

/-- The stacked positive terms: entry r is the inner product of its pair's two rows. -/
theorem pos_eq (r : Fin 8192) :
    val_main_v52 (F := Ideal) x0 x1 (ix1 r) = Cert.Spec.pos (A x0) (B x1) (Cert.Spec.pairOf r) := by
  have hr := r.isLt
  unfold val_main_v52
  by_cases h : r.val < 4096
  · have hp : Cert.Spec.pairOf r = ⟨r.val, h⟩ := Fin.ext (Nat.mod_eq_of_lt h)
    rw [hp]
    refine (concatenate_pair_apply_left (t := S8192) (s₁ := S4096) (s₂ := S4096) (0 : Fin 1) _ _ _ (ix1 r) rfl
      (ix1 (⟨r.val, h⟩ : Fin 4096)) (fun b => match b with | ⟨0, _⟩ => rfl)).trans ?_
    exact first_half x0 x1 ⟨r.val, h⟩
  · obtain ⟨q, hq⟩ : ∃ q : Fin 4096, r.val = q.val + 4096 :=
      ⟨⟨r.val - 4096, by omega⟩, by show r.val = r.val - 4096 + 4096; omega⟩
    have hp : Cert.Spec.pairOf r = q := Fin.ext (by have := q.isLt; show r.val % 4096 = q.val; omega)
    rw [hp]
    refine (concatenate_pair_apply_right (t := S8192) (s₁ := S4096) (s₂ := S4096) (0 : Fin 1) _ _ _ (ix1 r) rfl rfl
      (ix1 q) (fun b hb => match b with | ⟨0, _⟩ => absurd rfl hb) hq.symm).trans ?_
    exact second_half x0 x1 q

end Cert.ReferenceIdeal.RefValue

end
-- ==== Proof.Ref.Result.lean ====
/- The reference's result at the ideal instance: its denominators are the masked sums of
   exp(sim / ½) — the mask (1 − identity) times the exponentials — and its result the mean of
   −log(exp(pos / ½) / den): the loss. -/
import proofs.«159083_j35948876267977_1_alg».proof.Proof.Ref.Pos
import proofs.«159083_j35948876267977_1_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.SL.Sem

variable (x0 x1 : (⟨S4096x256, .f32⟩ : BufTy).Contents (Elt Ideal))

/-- The word 0x3F000000 denotes ½. -/
private theorem ofBits_half : Ideal.ofBits .f32 0x3F000000#32 = (((1 : ℝ) / 2 : ℝ) : EReal) := by
  simp [Ideal.ofBits, Ideal.ieee, -EReal.coe_mul]; norm_num

/-- The word 0x40000000 denotes 2. -/
private theorem ofBits_two : Ideal.ofBits .f32 0x40000000#32 = ((2 : ℝ) : EReal) := by
  simp [Ideal.ofBits, Ideal.ieee, -EReal.coe_mul]; norm_num

/-- The word 0x3F800000 denotes 1. -/
private theorem ofBits_one : Ideal.ofBits .f32 0x3F800000#32 = 1 := by
  simp [Ideal.ofBits, Ideal.ieee, -EReal.coe_mul]; norm_num

/-- The quotient by ½ is the product with 2, at the infinities too. -/
private theorem div_half (x : EReal) :
    Ideal.div x (Ideal.ofBits .f32 0x3F000000#32) = x * Ideal.ofBits .f32 0x40000000#32 := by
  rw [ofBits_half, ofBits_two, Ideal.div_coe (by norm_num)]
  congr 2; norm_num

/-- On the extended reals 1 − 1 = 0. -/
private theorem one_sub_one : (1 : EReal) - 1 = 0 := by
  rw [← EReal.coe_one, ← EReal.coe_sub, sub_self, EReal.coe_zero]

/-- One minus the indicator of the diagonal, on the 32-bit words of two coordinates below 8192: the words are equal
    exactly when the coordinates are. -/
private theorem mask_word (a b : Fin 8192) :
    (1 : EReal) - (((IntOp.cmpi .eq (IntOp.addi (BitVec.ofNat 32 a.val) 0#32) (BitVec.ofNat 32 b.val)).toNat : ℝ) : EReal)
      = if a = b then 0 else 1 := by
  have hiff : (BitVec.ofNat 32 a.val = BitVec.ofNat 32 b.val) ↔ a = b := by
    constructor
    · intro h
      have h' := congrArg BitVec.toNat h
      simp only [BitVec.toNat_ofNat] at h'
      have ha := a.isLt
      have hb := b.isLt
      exact Fin.ext (by omega)
    · intro h; rw [h]
  unfold IntOp.addi
  rw [BitVec.add_zero]
  by_cases h : a = b
  · rw [if_pos h, StableHlo.Predicate.cmpi_eq_iff.mpr (hiff.mpr h)]
    simp [one_sub_one]
  · rw [if_neg h]
    have h0 : IntOp.cmpi .eq (BitVec.ofNat 32 a.val) (BitVec.ofNat 32 b.val) = 0#1 :=
      eq_zero_of_ne_one (fun h1 => h (hiff.mp (StableHlo.Predicate.cmpi_eq_iff.mp h1)))
    rw [h0]; simp

/-- The mask: nothing on the diagonal, one off it. -/
private theorem mask_eq (r c : Fin 8192) :
    val_main_v63 (F := Ideal) (ix2 r c) = if r = c then 0 else 1 := by
  rw [val_main_v63_apply, val_main_v62_apply, val_main_cst_14_apply, val_main_v61_apply, val_main_v60_apply,
    val_main_v59_apply, val_main_v56_apply, val_main_v58_apply, val_main_c_13_apply, val_main_v57_apply]
  simp only [Ideal.subf_def, Ideal.ofBits_def]
  rw [ofBits_one]
  exact mask_word r c

/-- The masked exponential at (r, c) is the denominator's term. -/
private theorem term_eq (r c : Fin 8192) :
    val_main_v67 (F := Ideal) x0 x1 (ix2 r c) = Cert.Spec.term (Cert.Spec.rows (A x0) (B x1)) r c := by
  rw [val_main_v67_apply, mask_eq, val_main_v66_apply, val_main_v65_apply, val_main_v64_apply,
    val_main_cst_15_apply, sim_eq]
  simp only [Ideal.mulf_def, Ideal.hostUnary_exp_def, Ideal.hostDivf_def, Ideal.ofBits_def]
  rw [div_half]
  unfold Cert.Spec.term
  by_cases h : r = c
  · rw [if_pos h, if_pos h, zero_mul]
  · rw [if_neg h, if_neg h, one_mul]

/-- Row r's denominator. -/
theorem den_eq (r : Fin 8192) :
    val_main_v68 (F := Ideal) x0 x1 (ix1 r) = Cert.Spec.den (Cert.Spec.rows (A x0) (B x1)) r := by
  rw [val_main_v68_apply, val_main_cst_16_apply]
  simp only [Ideal.ofBits_def]
  rw [Ideal.ofBits_zero_f32, zero_add]
  unfold Cert.Spec.den
  refine Finset.sum_congr rfl fun c _ => ?_
  have hidx : idx_main_v68 (ix1 r) c = ix2 r c :=
    funext fun a => Fin.ext (by match a with | ⟨0, _⟩ => rfl | ⟨1, _⟩ => rfl)
  rw [hidx]
  exact term_eq x0 x1 r c

/-- Stacked row r's summand of the loss. -/
private theorem summand_eq (r : Fin 8192) :
    val_main_v71 (F := Ideal) x0 x1 (ix1 r)
      = Cert.Spec.summand (Cert.Spec.pos (A x0) (B x1) (Cert.Spec.pairOf r))
          (Cert.Spec.den (Cert.Spec.rows (A x0) (B x1)) r) := by
  rw [val_main_v71_apply, val_main_v70_apply, val_main_v69_apply, val_main_v55_apply, val_main_v54_apply,
    val_main_v53_apply, val_main_cst_12_apply, pos_eq, den_eq]
  simp only [Ideal.hostNegf_def, Ideal.negf_def, Ideal.hostUnary_log_def, Ideal.hostUnary_exp_def,
    Ideal.hostDivf_def, Ideal.ofBits_def]
  rfl

/-- The reference's result: the loss. -/
theorem result_eq :
    val_main_v73 (F := Ideal) x0 x1 = fun _ => Cert.Spec.loss (A x0) (B x1) := by
  funext i
  rw [val_main_v73_apply, val_main_v72_apply, val_main_cst_18_apply, val_main_cst_17_apply]
  simp only [Ideal.hostDivf_def, Ideal.ofBits_def]
  have hsum : ∑ j : S8192.Idx, val_main_v71 (F := Ideal) x0 x1 j
      = ∑ r : Fin 8192, Cert.Spec.summand (Cert.Spec.pos (A x0) (B x1) (Cert.Spec.pairOf r))
          (Cert.Spec.den (Cert.Spec.rows (A x0) (B x1)) r) :=
    Fintype.sum_equiv (idxEquiv1 (n := 8192)) _ _ (fun j => by
      obtain ⟨r, rfl⟩ : ∃ r : Fin 8192, j = ix1 r := ⟨j 0, eq_ix1 j⟩
      exact summand_eq x0 x1 r)
  rw [hsum]
  rfl

end Cert.ReferenceIdeal.RefValue

end
-- ==== Proof.Ref.Run.lean ====
/- The reference program's run, read stretch by stretch.  Its @main is 95 host operations in a
   line; every weakly fair execution ends with each buffer at the fold of the operations' results.
   Read back in five stretches — a cut before each concatenate — the result buffer holds the last
   stage function of the two arguments, and no operation writes an argument. -/
import proofs.«159083_j35948876267977_1_alg».proof.Proof.RefOps
import proofs.«159083_j35948876267977_1_alg».proof.Proof.RefStages

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

open Cert.ReferenceIdeal.Read

/-! The reference's @main cut into five stretches, a cut before each concatenate, so that within a
    stretch every concatenate joins buffers the stretch finds, not values it computes. Each stretch
    is read on its own: the buffers later stretches use, as the stage functions of the arguments. -/

/-- Normalisation of both arguments (operations 1–20). -/
abbrev c1 : List (HloOp τ sig (Elt F)) := (ops (F := F)).take 20
/-- Stacking, the similarity matrix, the first gather's index columns (21–43). -/
abbrev c2 : List (HloOp τ sig (Elt F)) := ((ops (F := F)).drop 20).take 23
/-- The first gather, the second gather's index columns (44–64). -/
abbrev c3 : List (HloOp τ sig (Elt F)) := ((ops (F := F)).drop 43).take 21
/-- The second gather (65–66). -/
abbrev c4 : List (HloOp τ sig (Elt F)) := ((ops (F := F)).drop 64).take 2
/-- Positive terms, denominators, the mean (67–95). -/
abbrev c5 : List (HloOp τ sig (Elt F)) := (ops (F := F)).drop 66

theorem ops_cut : (ops (F := F)) = c1 ++ (c2 ++ (c3 ++ (c4 ++ c5))) := by
  simp only [c1, c2, c3, c4, c5, ops, List.take_succ_cons, List.take_zero, List.drop_succ_cons, List.drop_zero, List.cons_append, List.nil_append]

variable (x0 x1 : (⟨S4096x256, .f32⟩ : BufTy).Contents (Elt F)) (W : Valuation τ sig (Elt F))

/-! ### Stretch 1 -/

theorem s1_v7 (h0 : W (Proc.devRef .tc main_arg0) = x0) :
    after c1 W (Proc.devRef .tc main_v7) = val_main_v7 (F := F) x0 := by
  simp only [c1, ops, List.take_succ_cons, List.take_zero, List.drop_succ_cons, List.drop_zero]
  after_results_simp
  rw [h0]; rfl

theorem s1_v15 (h1 : W (Proc.devRef .tc main_arg1) = x1) :
    after c1 W (Proc.devRef .tc main_v15) = val_main_v15 (F := F) x1 := by
  simp only [c1, ops, List.take_succ_cons, List.take_zero, List.drop_succ_cons, List.drop_zero]
  after_results_simp
  rw [h1]; rfl

/-! ### Stretch 2 -/

theorem s2_v18 (h7 : W (Proc.devRef .tc main_v7) = val_main_v7 (F := F) x0) (h15 : W (Proc.devRef .tc main_v15) = val_main_v15 (F := F) x1) :
    after c2 W (Proc.devRef .tc main_v18) = val_main_v18 (F := F) x0 x1 := by
  simp only [c2, ops, List.take_succ_cons, List.take_zero, List.drop_succ_cons, List.drop_zero]
  after_results_simp
  rw [h7, h15]; rfl

theorem s2_v19 : after c2 W (Proc.devRef .tc main_v19) = val_main_v19 (F := F) := by
  simp only [c2, ops, List.take_succ_cons, List.take_zero, List.drop_succ_cons, List.drop_zero]
  after_results_simp
  rfl

theorem s2_v32 : after c2 W (Proc.devRef .tc main_v32) = val_main_v32 (F := F) := by
  simp only [c2, ops, List.take_succ_cons, List.take_zero, List.drop_succ_cons, List.drop_zero]
  after_results_simp
  rfl

theorem s2_v33 : after c2 W (Proc.devRef .tc main_v33) = val_main_v33 (F := F) := by
  simp only [c2, ops, List.take_succ_cons, List.take_zero, List.drop_succ_cons, List.drop_zero]
  after_results_simp
  rfl

/-! ### Stretch 3 -/

theorem s3_v35 (h18 : W (Proc.devRef .tc main_v18) = val_main_v18 (F := F) x0 x1) (h32 : W (Proc.devRef .tc main_v32) = val_main_v32 (F := F))
    (h33 : W (Proc.devRef .tc main_v33) = val_main_v33 (F := F)) :
    after c3 W (Proc.devRef .tc main_v35) = val_main_v35 (F := F) x0 x1 := by
  simp only [c3, ops, List.take_succ_cons, List.take_zero, List.drop_succ_cons, List.drop_zero]
  after_results_simp
  rw [h18, h32, h33]; rfl

theorem s3_v48 (h19 : W (Proc.devRef .tc main_v19) = val_main_v19 (F := F)) :
    after c3 W (Proc.devRef .tc main_v48) = val_main_v48 (F := F) := by
  simp only [c3, ops, List.take_succ_cons, List.take_zero, List.drop_succ_cons, List.drop_zero]
  after_results_simp
  rw [h19]; rfl

theorem s3_v49 (h19 : W (Proc.devRef .tc main_v19) = val_main_v19 (F := F)) :
    after c3 W (Proc.devRef .tc main_v49) = val_main_v49 (F := F) := by
  simp only [c3, ops, List.take_succ_cons, List.take_zero, List.drop_succ_cons, List.drop_zero]
  after_results_simp
  rw [h19]; rfl

theorem s3_v18 : after c3 W (Proc.devRef .tc main_v18) = W (Proc.devRef .tc main_v18) := by
  simp only [c3, ops, List.take_succ_cons, List.take_zero, List.drop_succ_cons, List.drop_zero]
  after_results_simp

/-! ### Stretch 4 -/

theorem s4_v51 (h18 : W (Proc.devRef .tc main_v18) = val_main_v18 (F := F) x0 x1) (h48 : W (Proc.devRef .tc main_v48) = val_main_v48 (F := F))
    (h49 : W (Proc.devRef .tc main_v49) = val_main_v49 (F := F)) :
    after c4 W (Proc.devRef .tc main_v51) = val_main_v51 (F := F) x0 x1 := by
  simp only [c4, ops, List.take_succ_cons, List.take_zero, List.drop_succ_cons, List.drop_zero]
  after_results_simp
  rw [h18, h48, h49]; rfl

theorem s4_v35 : after c4 W (Proc.devRef .tc main_v35) = W (Proc.devRef .tc main_v35) := by
  simp only [c4, ops, List.take_succ_cons, List.take_zero, List.drop_succ_cons, List.drop_zero]
  after_results_simp

theorem s4_v18 : after c4 W (Proc.devRef .tc main_v18) = W (Proc.devRef .tc main_v18) := by
  simp only [c4, ops, List.take_succ_cons, List.take_zero, List.drop_succ_cons, List.drop_zero]
  after_results_simp

/-! ### Stretch 5 -/

theorem s5_v73 (h35 : W (Proc.devRef .tc main_v35) = val_main_v35 (F := F) x0 x1) (h51 : W (Proc.devRef .tc main_v51) = val_main_v51 (F := F) x0 x1)
    (h18 : W (Proc.devRef .tc main_v18) = val_main_v18 (F := F) x0 x1) :
    after c5 W (Proc.devRef .tc main_v73) = val_main_v73 (F := F) x0 x1 := by
  simp only [c5, ops, List.take_succ_cons, List.take_zero, List.drop_succ_cons, List.drop_zero]
  after_results_simp
  rw [h35, h51, h18]; rfl

/-! ### The stretches joined -/

/-- After all 95 operations the result buffer holds the last stage function of the two arguments. -/
theorem after_v73 (h0 : W (Proc.devRef .tc main_arg0) = x0) (h1 : W (Proc.devRef .tc main_arg1) = x1) :
    after (ops (F := F)) W (Proc.devRef .tc main_v73) = val_main_v73 (F := F) x0 x1 := by
  rw [ops_cut, after_append, after_append, after_append, after_append]
  have e7 := s1_v7 x0 W h0
  have e15 := s1_v15 x1 W h1
  generalize after c1 W = W1 at e7 e15 ⊢
  have e18 := s2_v18 x0 x1 W1 e7 e15
  have e19 := s2_v19 W1
  have e32 := s2_v32 W1
  have e33 := s2_v33 W1
  generalize after c2 W1 = W2 at e18 e19 e32 e33 ⊢
  have e35 := s3_v35 x0 x1 W2 e18 e32 e33
  have e48 := s3_v48 W2 e19
  have e49 := s3_v49 W2 e19
  have e18' := (s3_v18 W2).trans e18
  generalize after c3 W2 = W3 at e35 e48 e49 e18' ⊢
  have e51 := s4_v51 x0 x1 W3 e18' e48 e49
  have e35' := (s4_v35 W3).trans e35
  have e18'' := (s4_v18 W3).trans e18'
  generalize after c4 W3 = W4 at e51 e35' e18'' ⊢
  exact s5_v73 x0 x1 W4 e35' e51 e18''

/-! ### The run -/

/-- On every device, for any float values, from any memory with zero counters: every weakly fair
    execution of @main terminates with the result buffer at the last stage function of the
    arguments, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
          = val_main_v73 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v73).trans (after_v73 _ _ (launchContents m c) rfl rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefValue

end
-- ==== Proof.Meet.lean ====
/- The two programs' results meet: both are the loss of the SAME two normalised row families.
   The kernel program's host operations before the region and the reference's first operations are
   the same normalisation of the same arguments, so the families the two value theorems are stated
   over coincide once the arguments agree. -/
import proofs.«159083_j35948876267977_1_alg».proof.Proof.KIV.Result
import proofs.«159083_j35948876267977_1_alg».proof.Proof.KI.Frame
import proofs.«159083_j35948876267977_1_alg».proof.Proof.Ref.Result
import proofs.«159083_j35948876267977_1_alg».proof.Proof.Ref.Run

set_option maxRecDepth 16384

noncomputable section

namespace Cert.Proof.Meet

open Idealize.ShloMosaic Idealize.ShloMosaic.TcCoe Idealize.ShloMosaic.ValueIdx
open Idealize.SL.Sem
open Cert.KernelIdeal Cert.KernelIdeal.Gen Cert.KernelIdeal.Denom

variable (m : (ℓ : Loc nD τ sig) → Buf (Elt Ideal) ℓ)

/-- The kernel program's normalised first family is the reference's normalisation of the first
    argument: the same ten operations. -/
theorem V_v7 (c : Dev nD) :
    (V (F := Ideal) m c main_v7 : Vec Ideal S4096x256 .f32)
      = Cert.ReferenceIdeal.Read.val_main_v7 (F := Ideal) (m ((c.tc : Thread nD τ).loc main_arg0)) := by
  show StableHlo.after hostOps0 (fun b => m (c, b)) (Proc.devRef .tc main_v7) = _
  after_results
  rfl

/-- The same of the second family. -/
theorem V_v15 (c : Dev nD) :
    (V (F := Ideal) m c main_v15 : Vec Ideal S4096x256 .f32)
      = Cert.ReferenceIdeal.Read.val_main_v15 (F := Ideal) (m ((c.tc : Thread nD τ).loc main_arg1)) := by
  show StableHlo.after hostOps0 (fun b => m (c, b)) (Proc.devRef .tc main_v15) = _
  after_results
  rfl

/-- The kernel program's result is the reference's last stage function of the same arguments. -/
theorem results_meet (c : Dev nD) :
    (Wfin (F := Ideal) m c (Proc.devRef .tc main_v30) : Vec Ideal S_ .f32)
      = Cert.ReferenceIdeal.Read.val_main_v73 (F := Ideal) (m ((c.tc : Thread nD τ).loc main_arg0)) (m ((c.tc : Thread nD τ).loc main_arg1)) := by
  rw [Cert.KernelIdeal.DenomValue.result_eq, Cert.ReferenceIdeal.RefValue.result_eq]
  have hA : Cert.KernelIdeal.DenomValue.A m c = Cert.ReferenceIdeal.RefValue.A (m ((c.tc : Thread nD τ).loc main_arg0)) := by
    funext p k
    show (V (F := Ideal) m c main_v7 : Vec Ideal S4096x256 .f32) (ix2 p k) = _
    rw [V_v7]
  have hB : Cert.KernelIdeal.DenomValue.B m c = Cert.ReferenceIdeal.RefValue.B (m ((c.tc : Thread nD τ).loc main_arg1)) := by
    funext p k
    show (V (F := Ideal) m c main_v15 : Vec Ideal S4096x256 .f32) (ix2 p k) = _
    rw [V_v15]
  rw [hA, hB]
  rfl

end Cert.Proof.Meet

end
-- ==== Proof.lean ====
/- The certificate of the pairwise-similarity (contrastive-loss) kernel against its reference.

   The kernel program normalises the rows of its two arguments, stacks them, and runs one pipelined
   kernel over an 8 × 8 grid that accumulates, for each stacked row, the sum over all OTHER stacked
   rows of exp(2 · inner product); host operations then take the mean of −log(exp(pos / ½) / den).
   The reference forms the whole 8192 × 8192 matrix of inner products, reads the positive terms off
   it by two gathers, masks the diagonal by (1 − identity) and sums rows.  Over the extended reals
   both are one number: the loss of Proof/Spec.lean.  The three frames: the two kernel programs by
   the launch of Proof/KI (the word-level program's copy in Proof/KB), the reference by its run read
   stretch by stretch (Proof/Ref/Run.lean). -/
import proofs.«159083_j35948876267977_1_alg».proof.Defs
import proofs.«159083_j35948876267977_1_alg».proof.Proof.Gen.Kernel
import proofs.«159083_j35948876267977_1_alg».proof.Proof.Gen.KernelIdeal
import proofs.«159083_j35948876267977_1_alg».proof.Proof.Gen.ReferenceIdeal
import proofs.«159083_j35948876267977_1_alg».proof.Proof.Gen.Pre_finite_inputs
import proofs.«159083_j35948876267977_1_alg».proof.Proof.KB.Frame
import proofs.«159083_j35948876267977_1_alg».proof.Proof.Meet
import Idealize.ShloMosaic.Adequacy
import Idealize.ShloMosaic.Init

noncomputable section

namespace Cert.Proof

open Idealize.ShloMosaic Idealize.SL.Sem

/-- The word-level kernel program runs and leaves its arguments unchanged. -/
theorem frame_p : Cert.frame_Kernel := fun m g _ => Cert.Kernel.Denom.frame (F := Bits) m g

/-- So does its idealization. -/
theorem frame_pi : Cert.frame_KernelIdeal := fun m g _ => Cert.KernelIdeal.Denom.frame (F := Ideal) m g

/-- So does the reference. -/
theorem frame_ri : Cert.frame_ReferenceIdeal := fun m g _ =>
  (θ_run Cert.ReferenceIdeal.defs _ _).mono (fun _ h c => (h c).2) (Cert.ReferenceIdeal.RefValue.ref_run (F := Ideal) m g)

/-- Run from memories that agree on the arguments, the two idealized programs end with the same
    result: each is the loss of the same two normalised row families. -/
theorem algebraic : Cert.algebraic_KernelIdeal_ReferenceIdeal := by
  intro m g m' g' _ hagree
  refine ⟨fun c => Cert.KernelIdeal.Denom.Wfin (F := Ideal) m c (Proc.devRef .tc Cert.KernelIdeal.main_v30),
    Cert.KernelIdeal.Denom.run_result (F := Ideal) m g, ?_⟩
  refine (θ_run Cert.ReferenceIdeal.defs _ _).mono (fun _ h c => ⟨(h c).1.trans ?_, (h c).2⟩)
    (Cert.ReferenceIdeal.RefValue.ref_run (F := Ideal) m' g')
  rw [(hagree c).1, (hagree c).2]
  exact (Cert.Proof.Meet.results_meet m c).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
